-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S1000000 : Shape := ⟨1, ![1000000]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  reducesTo_S1000000x128_S1000000_d1 : S1000000x128.ReducesTo [1] S1000000
  bcast_S_S1000000 : S_.BroadcastsInDim S1000000 (![] : Fin 0 → Fin S1000000.rank)
  reducesTo_S1000000_S_d0 : S1000000.ReducesTo [0] S_

variable [Facts]

def fn_part1 {F : FTy → Type} [FloatOps F] (main_v14 : IVec S_ 1) (main_v15 : FVec F S1000000x128 .f32) (main_cst_5 : FVec F S_ .f32) : IVec S_ 1 :=
  let main_v16 : FVec F S1000000 .f32 := (fun x v => Host.reduceAdd x v reducesTo_S1000000x128_S1000000_d1 h_S_) main_v15 main_cst_5
  let main_cst_6 : FVec F S_ .f32 := constant S_ .f32 0x00000000#32
  let main_v17 : FVec F S1000000 .f32 := broadcastInDim S1000000 ![] bcast_S_S1000000 main_cst_6
  let main_v18 : IVec S1000000 1 := cmpf .ogt main_v16 main_v17
  let main_c_7 : IVec S_ 1 := constantI S_ 1 1#1
  let main_v19 : IVec S_ 1 := (fun x v => Host.reduce IntOp.andi x v reducesTo_S1000000_S_d0 h_S_) main_v18 main_c_7
  let main_v20 : IVec S_ 1 := andi main_v14 main_v19
  main_v20

def fn {F : FTy → Type} [FloatOps F] (main_arg0 : FVec F S1000000x128 .f32) (main_arg1 : FVec F S1000000x128 .f32) (main_arg2 : IVec S1000000 32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S1000000x128 .f32 := Host.absf main_arg1
  let main_cst_0 : FVec F S_ .f32 := constant S_ .f32 0x7F800000#32
  let main_v5 : FVec F S1000000x128 .f32 := broadcastInDim S1000000x128 ![] bcast_S_S1000000x128 main_cst_0
  let main_v6 : IVec S1000000x128 1 := cmpf .olt main_v4 main_v5
  let main_c_1 : IVec S_ 1 := constantI S_ 1 1#1
  let main_v7 : IVec S_ 1 := (fun x v => Host.reduce IntOp.andi x v reducesTo_S1000000x128_S_d0_1 h_S_) main_v6 main_c_1
  let main_v8 : IVec S_ 1 := andi main_v3 main_v7
  let main_v9 : FVec F S1000000x128 .f32 := mulf main_arg0 main_arg0
  let main_cst_2 : FVec F S_ .f32 := constant S_ .f32 0x00000000#32
  let main_v10 : FVec F S1000000 .f32 := (fun x v => Host.reduceAdd x v reducesTo_S1000000x128_S1000000_d1 h_S_) main_v9 main_cst_2
  let main_cst_3 : FVec F S_ .f32 := constant S_ .f32 0x00000000#32
  let main_v11 : FVec F S1000000 .f32 := broadcastInDim S1000000 ![] bcast_S_S1000000 main_cst_3
  let main_v12 : IVec S1000000 1 := cmpf .ogt main_v10 main_v11
  let main_c_4 : IVec S_ 1 := constantI S_ 1 1#1
  let main_v13 : IVec S_ 1 := (fun x v => Host.reduce IntOp.andi x v reducesTo_S1000000_S_d0 h_S_) main_v12 main_c_4
  let main_v14 : IVec S_ 1 := andi main_v8 main_v13
  let main_v15 : FVec F S1000000x128 .f32 := mulf main_arg1 main_arg1
  let main_cst_5 : FVec F S_ .f32 := constant S_ .f32 0x00000000#32
  fn_part1 (F := F) main_v14 main_v15 main_cst_5
-- ==== Kernel.lean ====
abbrev S1000000x128 : Shape := ⟨2, ![1000000, 128]⟩
abbrev S1000000 : Shape := ⟨1, ![1000000]⟩
abbrev S2x500000x128 : Shape := ⟨3, ![2, 500000, 128]⟩
abbrev S2x500000x1 : Shape := ⟨3, ![2, 500000, 1]⟩
abbrev S2x1024x256 : Shape := ⟨3, ![2, 1024, 256]⟩
abbrev S2x1x1024 : Shape := ⟨3, ![2, 1, 1024]⟩
abbrev S1x4000x128 : Shape := ⟨3, ![1, 4000, 128]⟩
abbrev S1x4000x1 : Shape := ⟨3, ![1, 4000, 1]⟩
abbrev S1x1024x256 : Shape := ⟨3, ![1, 1024, 256]⟩
abbrev S1x1x1024 : Shape := ⟨3, ![1, 1, 1024]⟩
abbrev S1024x256 : Shape := ⟨2, ![1024, 256]⟩
abbrev S1x1024 : Shape := ⟨2, ![1, 1024]⟩
abbrev S4000x128 : Shape := ⟨2, ![4000, 128]⟩
abbrev S4000x1 : Shape := ⟨2, ![4000, 1]⟩
abbrev S4000 : Shape := ⟨1, ![4000]⟩
abbrev S4000x256 : Shape := ⟨2, ![4000, 256]⟩
abbrev S4000x1024 : Shape := ⟨2, ![4000, 1024]⟩
abbrev S1024 : Shape := ⟨1, ![1024]⟩
abbrev S_ : Shape := ⟨0, ![]⟩
abbrev S1x1000 : Shape := ⟨2, ![1, 1000]⟩
abbrev S1000 : Shape := ⟨1, ![1000]⟩
abbrev S1000x128 : Shape := ⟨2, ![1000, 128]⟩
abbrev S1000x1 : Shape := ⟨2, ![1000, 1]⟩

abbrev nBuf : Space → Nat
  | .hbm => 43
  | .vmem => 10
  | .smem => 0
  | _ => 0

abbrev bufTy : (tb : Table) → Fin (tcTables nBuf tb) → BufTy
  | .hbm, ⟨0, _⟩ => ⟨S1000000x128, .f32⟩
  | .hbm, ⟨1, _⟩ => ⟨S1000000x128, .f32⟩
  | .hbm, ⟨2, _⟩ => ⟨S1000000, .i32⟩
  | .hbm, ⟨3, _⟩ => ⟨S2x500000x128, .f32⟩
  | .hbm, ⟨4, _⟩ => ⟨S2x500000x128, .f32⟩
  | .hbm, ⟨5, _⟩ => ⟨S2x500000x1, .i32⟩
  | .hbm, ⟨6, _⟩ => ⟨S2x1024x256, .f32⟩
  | .hbm, ⟨7, _⟩ => ⟨S2x1x1024, .f32⟩
  | .hbm, ⟨8, _⟩ => ⟨S_, .f32⟩
  | .hbm, ⟨9, _⟩ => ⟨S1024x256, .f32⟩
  | .hbm, ⟨10, _⟩ => ⟨S_, .f32⟩
  | .hbm, ⟨11, _⟩ => ⟨S1x1024, .f32⟩
  | .hbm, ⟨12, _⟩ => ⟨S1x1000, .f32⟩
  | .hbm, ⟨13, _⟩ => ⟨S1000, .f32⟩
  | .hbm, ⟨14, _⟩ => ⟨S1000x128, .f32⟩
  | .hbm, ⟨15, _⟩ => ⟨S1000x128, .f32⟩
  | .hbm, ⟨16, _⟩ => ⟨S_, .f32⟩
  | .hbm, ⟨17, _⟩ => ⟨S1000, .f32⟩
  | .hbm, ⟨18, _⟩ => ⟨S1000, .f32⟩
  | .hbm, ⟨19, _⟩ => ⟨S1000x1, .f32⟩
  | .hbm, ⟨20, _⟩ => ⟨S1000x128, .f32⟩
  | .hbm, ⟨21, _⟩ => ⟨S1000x128, .f32⟩
  | .hbm, ⟨22, _⟩ => ⟨S1000x128, .f32⟩
  | .hbm, ⟨23, _⟩ => ⟨S1000x128, .f32⟩
  | .hbm, ⟨24, _⟩ => ⟨S1000x128, .f32⟩
  | .hbm, ⟨25, _⟩ => ⟨S1000x128, .f32⟩
  | .hbm, ⟨26, _⟩ => ⟨S_, .f32⟩
  | .hbm, ⟨27, _⟩ => ⟨S1000, .f32⟩
  | .hbm, ⟨28, _⟩ => ⟨S_, .f32⟩
  | .hbm, ⟨29, _⟩ => ⟨S1000, .f32⟩
  | .hbm, ⟨30, _⟩ => ⟨S1000, .f32⟩
  | .hbm, ⟨31, _⟩ => ⟨S_, .f32⟩
  | .hbm, ⟨32, _⟩ => ⟨S1000, .f32⟩
  | .hbm, ⟨33, _⟩ => ⟨S1000, .f32⟩
  | .hbm, ⟨34, _⟩ => ⟨S_, .f32⟩
  | .hbm, ⟨35, _⟩ => ⟨S1000, .f32⟩
  | .hbm, ⟨36, _⟩ => ⟨S1000, .i1⟩
  | .hbm, ⟨37, _⟩ => ⟨S_, .f32⟩
  | .hbm, ⟨38, _⟩ => ⟨S_, .f32⟩
  | .hbm, ⟨39, _⟩ => ⟨S1000, .f32⟩
  | .hbm, ⟨40, _⟩ => ⟨S1000, .f32⟩
  | .hbm, ⟨41, _⟩ => ⟨S_, .f32⟩
  | .hbm, ⟨42, _⟩ => ⟨S_, .f32⟩
  | .local _ .vmem, ⟨0, _⟩ => ⟨S1x4000x128, .f32⟩
  | .local _ .vmem, ⟨1, _⟩ => ⟨S1x4000x128, .f32⟩
  | .local _ .vmem, ⟨2, _⟩ => ⟨S1x4000x128, .f32⟩
  | .local _ .vmem, ⟨3, _⟩ => ⟨S1x4000x128, .f32⟩
  | .local _ .vmem, ⟨4, _⟩ => ⟨S1x4000x1, .i32⟩
  | .local _ .vmem, ⟨5, _⟩ => ⟨S1x4000x1, .i32⟩
  | .local _ .vmem, ⟨6, _⟩ => ⟨S1x1024x256, .f32⟩
  | .local _ .vmem, ⟨7, _⟩ => ⟨S1x1024x256, .f32⟩
  | .local _ .vmem, ⟨8, _⟩ => ⟨S1x1x1024, .f32⟩
  | .local _ .vmem, ⟨9, _⟩ => ⟨S1x1x1024, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_call0_v0 : Ref sig .tc := ⟨.hbm, 38, rfl⟩
abbrev main_call0_v1 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 125], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4000x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S1000000x128_S2x500000x128 : S1000000x128.ShapeCasts S2x500000x128
  shapeCasts_S1000000_S2x500000x1 : S1000000.ShapeCasts S2x500000x1
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  inb_S1x4000x128_S1x4000x128_0_0_0 : ∀ a, (![0, 0, 0] : Fin 3 → Nat) a + S1x4000x128.size a ≤ S1x4000x128.size a
  h_S1x4000x128 : 0 < S1x4000x128.numel
  shapeCasts_S1x4000x128_S4000x128 : S1x4000x128.ShapeCasts S4000x128
  inb_S1x4000x1_S1x4000x1_0_0_0 : ∀ a, (![0, 0, 0] : Fin 3 → Nat) a + S1x4000x1.size a ≤ S1x4000x1.size a
  h_S1x4000x1 : 0 < S1x4000x1.numel
  shapeCasts_S1x4000x1_S4000x1 : S1x4000x1.ShapeCasts S4000x1
  reduces_S4000x128_S4000 : S4000x128.Reduces [1] S4000
  shapeCasts_S4000_S4000x1 : S4000.ShapeCasts S4000x1
  broadcasts_S4000x1_S4000x128 : S4000x1.Broadcasts S4000x128
  bitsLt_bf16_f32 : FTy.bits .bf16 < FTy.bits .f32
  concatenates_S4000x128_S4000x128_S4000x256_d1 : Shape.Concatenates [S4000x128, S4000x128] S4000x256 1
  iota_S1x1024_d1_w32 : S1x1024.Iotas .tc 32 [1]
  broadcasts_S4000x1_S4000x1024 : S4000x1.Broadcasts S4000x1024
  broadcasts_S1x1024_S4000x1024 : S1x1024.Broadcasts S4000x1024
  natLt_1_32 : 1 < 32
  reduces_S4000x1024_S1024 : S4000x1024.Reduces [0] S1024
  shapeCasts_S1024_S1x1024 : S1024.ShapeCasts S1x1024
  reducesTo_S2x1024x256_S1024x256_d0 : S2x1024x256.ReducesTo [0] S1024x256
  h_S_ : 0 < S_.numel
  reducesTo_S2x1x1024_S1x1024_d0 : S2x1x1024.ReducesTo [0] S1x1024
  slices_S1x1024_S1x1000_0_0 : S1x1024.Slices ![0, 0] S1x1000
  shapeCasts_S1x1000_S1000 : S1x1000.ShapeCasts S1000
  slices_S1024x256_S1000x128_0_0 : S1024x256.Slices ![0, 0] S1000x128
  slices_S1024x256_S1000x128_0_128 : S1024x256.Slices ![0, 128] S1000x128
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x128_0_1 : S1000x1.BroadcastsInDim S1000x128 (![0, 1] : Fin 2 → Fin S1000x128.rank)
  reducesTo_S1000x128_S1000_d1 : S1000x128.ReducesTo [1] S1000
  reducesTo_S1000_S_d0 : S1000.ReducesTo [0] S_
  dot_S4000x1024_S4000x256_S1024x256_0_0_1_1_n_n_wf : DotDims.WF S4000x1024 S4000x256 S1024x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4000x128.size a ≤ S2x500000x128.size a
  hwx0_0 : ∀ i : grid0.Coords, EltTy.bits .f32 = 32 ∨ (Rect.block (s := S2x500000x128) S1x4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4000x128.size a ≤ S2x500000x128.size a
  hwx0_1 : ∀ i : grid0.Coords, EltTy.bits .f32 = 32 ∨ (Rect.block (s := S2x500000x128) S1x4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4000x1.size a ≤ S2x500000x1.size a
  hwx0_2 : ∀ i : grid0.Coords, EltTy.bits .i32 = 32 ∨ (Rect.block (s := S2x500000x1) S1x4000x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x256.size a ≤ S2x1024x256.size a
  hwx0_3 : ∀ i : grid0.Coords, EltTy.bits .f32 = 32 ∨ (Rect.block (s := S2x1024x256) S1x1024x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024.size a ≤ S2x1x1024.size a
  hwx0_4 : ∀ i : grid0.Coords, EltTy.bits .f32 = 32 ∨ (Rect.block (s := S2x1x1024) S1x1x1024.size (cc0_transform_4 i) (hinb0_4 i)).WholeWords (EltTy.packing .f32)

variable [Facts₀]

def dot_S4000x1024_S4000x256_S1024x256_0_0_1_1_n_n : DotDims S4000x1024 S4000x256 S1024x256 where
  lhsContracting := [0]
  rhsContracting := [0]
  lhsNonContracting := [1]
  rhsNonContracting := [1]
  lhsBatch := []
  rhsBatch := []
  wf := dot_S4000x1024_S4000x256_S1024x256_0_0_1_1_n_n_wf

abbrev win0_0 : Pipeline.Window sig grid0 :=
  Pipeline.Window.ofSpec (Memref.whole main_v0) S1x4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x1024x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x1x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1000000x128 : Shape := ⟨2, ![1000000, 128]⟩
abbrev S1000000 : Shape := ⟨1, ![1000000]⟩
abbrev S_ : Shape := ⟨0, ![]⟩
abbrev S1000000x1 : Shape := ⟨2, ![1000000, 1]⟩
abbrev S1000 : Shape := ⟨1, ![1000]⟩
abbrev S1000x128 : Shape := ⟨2, ![1000, 128]⟩
abbrev S1000x1 : Shape := ⟨2, ![1000, 1]⟩

abbrev nBuf : Space → Nat
  | .hbm => 58
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S1000000x128, .f32⟩
  | .hbm, ⟨2, _⟩ => ⟨S1000000, .i32⟩
  | .hbm, ⟨3, _⟩ => ⟨S1000000x128, .f32⟩
  | .hbm, ⟨4, _⟩ => ⟨S_, .f32⟩
  | .hbm, ⟨5, _⟩ => ⟨S1000000, .f32⟩
  | .hbm, ⟨6, _⟩ => ⟨S1000000x1, .f32⟩
  | .hbm, ⟨7, _⟩ => ⟨S1000000x1, .f32⟩
  | .hbm, ⟨8, _⟩ => ⟨S1000000x128, .f32⟩
  | .hbm, ⟨9, _⟩ => ⟨S1000000x128, .f32⟩
  | .hbm, ⟨10, _⟩ => ⟨S1000000x128, .f32⟩
  | .hbm, ⟨11, _⟩ => ⟨S_, .f32⟩
  | .hbm, ⟨12, _⟩ => ⟨S1000000, .f32⟩
  | .hbm, ⟨13, _⟩ => ⟨S1000000x1, .f32⟩
  | .hbm, ⟨14, _⟩ => ⟨S1000000x1, .f32⟩
  | .hbm, ⟨15, _⟩ => ⟨S1000000x128, .f32⟩
  | .hbm, ⟨16, _⟩ => ⟨S1000000x128, .f32⟩
  | .hbm, ⟨17, _⟩ => ⟨S_, .f32⟩
  | .hbm, ⟨18, _⟩ => ⟨S1000000, .f32⟩
  | .hbm, ⟨19, _⟩ => ⟨S_, .f32⟩
  | .hbm, ⟨20, _⟩ => ⟨S1000, .f32⟩
  | .hbm, ⟨21, _⟩ => ⟨S1000000x1, .i32⟩
  | .hbm, ⟨22, _⟩ => ⟨S1000, .f32⟩
  | .hbm, ⟨23, _⟩ => ⟨S_, .f32⟩
  | .hbm, ⟨24, _⟩ => ⟨S1000x128, .f32⟩
  | .hbm, ⟨25, _⟩ => ⟨S1000000x1, .i32⟩
  | .hbm, ⟨26, _⟩ => ⟨S1000x128, .f32⟩
  | .hbm, ⟨27, _⟩ => ⟨S_, .f32⟩
  | .hbm, ⟨28, _⟩ => ⟨S1000x128, .f32⟩
  | .hbm, ⟨29, _⟩ => ⟨S1000000x1, .i32⟩
  | .hbm, ⟨30, _⟩ => ⟨S1000x128, .f32⟩
  | .hbm, ⟨31, _⟩ => ⟨S_, .f32⟩
  | .hbm, ⟨32, _⟩ => ⟨S1000, .f32⟩
  | .hbm, ⟨33, _⟩ => ⟨S1000, .f32⟩
  | .hbm, ⟨34, _⟩ => ⟨S1000x1, .f32⟩
  | .hbm, ⟨35, _⟩ => ⟨S1000x128, .f32⟩
  | .hbm, ⟨36, _⟩ => ⟨S1000x128, .f32⟩
  | .hbm, ⟨37, _⟩ => ⟨S1000x128, .f32⟩
  | .hbm, ⟨38, _⟩ => ⟨S1000x128, .f32⟩
  | .hbm, ⟨39, _⟩ => ⟨S1000x128, .f32⟩
  | .hbm, ⟨40, _⟩ => ⟨S1000x128, .f32⟩
  | .hbm, ⟨41, _⟩ => ⟨S_, .f32⟩
  | .hbm, ⟨42, _⟩ => ⟨S1000, .f32⟩
  | .hbm, ⟨43, _⟩ => ⟨S_, .f32⟩
  | .hbm, ⟨44, _⟩ => ⟨S1000, .f32⟩
  | .hbm, ⟨45, _⟩ => ⟨S1000, .f32⟩
  | .hbm, ⟨46, _⟩ => ⟨S_, .f32⟩
  | .hbm, ⟨47, _⟩ => ⟨S1000, .f32⟩
  | .hbm, ⟨48, _⟩ => ⟨S1000, .f32⟩
  | .hbm, ⟨49, _⟩ => ⟨S_, .f32⟩
  | .hbm, ⟨50, _⟩ => ⟨S1000, .f32⟩
  | .hbm, ⟨51, _⟩ => ⟨S1000, .i1⟩
  | .hbm, ⟨52, _⟩ => ⟨S_, .f32⟩
  | .hbm, ⟨53, _⟩ => ⟨S_, .f32⟩
  | .hbm, ⟨54, _⟩ => ⟨S1000, .f32⟩
  | .hbm, ⟨55, _⟩ => ⟨S1000, .f32⟩
  | .hbm, ⟨56, _⟩ => ⟨S_, .f32⟩
  | .hbm, ⟨57, _⟩ => ⟨S_, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_6 : Ref sig .tc := ⟨.hbm, 41, rfl⟩
abbrev main_v31 : Ref sig .tc := ⟨.hbm, 42, rfl⟩
abbrev main_cst_7 : Ref sig .tc := ⟨.hbm, 43, rfl⟩
abbrev main_v32 : Ref sig .tc := ⟨.hbm, 44, rfl⟩
abbrev main_v33 : Ref sig .tc := ⟨.hbm, 45, rfl⟩
abbrev main_cst_8 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_cst_10 : Ref sig .tc := ⟨.hbm, 52, rfl⟩
abbrev main_call0_v0 : Ref sig .tc := ⟨.hbm, 53, rfl⟩
abbrev main_call0_v1 : Ref sig .tc := ⟨.hbm, 54, rfl⟩
abbrev main_v38 : Ref sig .tc := ⟨.hbm, 55, rfl⟩
abbrev main_cst_11 : Ref sig .tc := ⟨.hbm, 56, rfl⟩
abbrev main_v39 : Ref sig .tc := ⟨.hbm, 57, rfl⟩

abbrev nD : Nat := 1
abbrev τ : Topo := Topo.v7x

variable {F : FTy → Type} [FloatOps F]

class Facts₀ : Prop where
  reducesTo_S1000000x128_S1000000_d1 : S1000000x128.ReducesTo [1] S1000000
  h_S_ : 0 < S_.numel
  bcast_S1000000_S1000000x1_0 : S1000000.BroadcastsInDim S1000000x1 (![0] : Fin 1 → Fin S1000000x1.rank)
  bcast_S1000000x1_S1000000x128_0_1 : S1000000x1.BroadcastsInDim S1000000x128 (![0, 1] : Fin 2 → Fin S1000000x128.rank)
  bcast_S_S1000000 : S_.BroadcastsInDim S1000000 (![] : Fin 0 → Fin S1000000.rank)
  bcast_S_S1000 : S_.BroadcastsInDim S1000 (![] : Fin 0 → Fin S1000.rank)
  bcast_S_S1000x128 : S_.BroadcastsInDim S1000x128 (![] : Fin 0 → Fin S1000x128.rank)
  bcast_S1000_S1000x1_0 : S1000.BroadcastsInDim S1000x1 (![0] : Fin 1 → Fin S1000x1.rank)
  bcast_S1000x1_S1000x128_0_1 : S1000x1.BroadcastsInDim S1000x128 (![0, 1] : Fin 2 → Fin S1000x128.rank)
  reducesTo_S1000x128_S1000_d1 : S1000x128.ReducesTo [1] S1000
  reducesTo_S1000_S_d0 : S1000.ReducesTo [0] S_
  scatter_S1000_S1000000x1_S1000000_n_0_0_1_wf : ScatterDims.WF S1000 S1000000x1 S1000000 [] [0] [0] 1
  scatter_S1000x128_S1000000x1_S1000000x128_1_0_0_1_wf : ScatterDims.WF S1000x128 S1000000x1 S1000000x128 [1] [0] [0] 1

variable [Facts₀]

def scatter_S1000_S1000000x1_S1000000_n_0_0_1 : ScatterDims S1000 S1000000x1 S1000000 where
  updateWindowDims := []
  insertedWindowDims := [0]
  scatterDimsToOperandDims := [0]
  indexVectorDim := 1
  wf := scatter_S1000_S1000000x1_S1000000_n_0_0_1_wf
def scatter_S1000x128_S1000000x1_S1000000x128_1_0_0_1 : ScatterDims S1000x128 S1000000x1 S1000000x128 where
  updateWindowDims := [1]
  insertedWindowDims := [0]
  scatterDimsToOperandDims := [0]
  indexVectorDim := 1
  wf := scatter_S1000x128_S1000000x1_S1000000x128_1_0_0_1_wf

class Facts : Prop extends Facts₀ where

variable [Facts]
-- ==== Proof.LibRows.lean ====
/-
  A scatter-add of whole rows into a table, and a gather of whole rows out of one, read at an index.

  The host's accumulating scatter with one index per update row: entry (c, j) of the result is the operand's entry plus the
  sum of column j of every update row whose index, read as a signed integer, is c and lies inside the table; an update row
  whose index lies outside is dropped. The same for a table of scalars (no column).
  The host's gather of rows: entry (…, j) of the result is column j of the table row named by the index at (…), read as a
  signed integer and clamped into the table.
  The four dimension records below are the ones a row scatter and a row gather print as; a printed record is one of them
  with its own well-formedness proof.
-/
import Idealize.ShloMosaic.PureOps.Ideal
import Idealize.ShloMosaic.PureOps.Ideal.Laws
import Idealize.ShloMosaic.Lib.ValueIdx

noncomputable section

namespace Cert.LibRows

open Idealize.ShloMosaic Idealize.ShloMosaic.ValueIdx

/-- The word h, read signed, is the number of row c of a table of N rows. -/
def RowHit {w : Nat} (N : Nat) (h : BitVec w) (c : Fin N) : Prop :=
  0 ≤ h.toInt ∧ h.toInt < (N : Int) ∧ h.toInt.toNat = c.val

instance {w : Nat} (N : Nat) (h : BitVec w) (c : Fin N) : Decidable (RowHit N h c) := by unfold RowHit; infer_instance

/-- The word h, read signed and clamped into a table of N rows. -/
def rowClamp {w : Nat} (N : Nat) (hN : 0 < N) (h : BitVec w) : Fin N := ⟨min h.toInt.toNat (N - 1), by omega⟩

/-- A scatter of M rows of C columns into a table of N rows, one index per row. -/
abbrev rowsScatter (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- A scatter of M scalars into a table of N scalars, one index per scalar. -/
abbrev vecScatter (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- A gather of rows of C columns out of a table of N rows, indexed by an A x B array of indices. -/
abbrev rowsGather3 (N C A B : Nat)
    (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

/-- A gather of rows of C columns out of a table of N rows, indexed by an A x B x D array of indices. -/
abbrev rowsGather4 (N C A B D : Nat)
    (wf : GatherDims.WF ⟨2, ![N, C]⟩ ⟨4, ![A, B, D, 1]⟩ ⟨4, ![A, B, D, C]⟩ [3] [0] [] [0] [] 3 ![1, C]) :
    GatherDims ⟨2, ![N, C]⟩ ⟨4, ![A, B, D, 1]⟩ ⟨4, ![A, B, D, C]⟩ where
  offsetDims := [3]
  collapsedSliceDims := [0]
  operandBatchingDims := []
  startIndicesBatchingDims := []
  startIndexMap := [0]
  indexVectorDim := 3
  sliceSizes := ![1, C]
  wf := wf

section RowsScatter

variable {N M C w : Nat} (wf : ScatterDims.WF ⟨2, ![N, C]⟩ ⟨2, ![M, 1]⟩ ⟨2, ![M, C]⟩ [1] [0] [0] 1)
  (idx : IVec ⟨2, ![M, 1]⟩ w) (q : Fin M) (j' : Fin C)

/-- On the table's row axis the window of update (q, j') starts at the q-th index, read signed. -/
private theorem rows_start0 : (rowsScatter N M C wf).start (ix2 q j') idx 0 = (idx (ix2 q 0)).toInt := by
  unfold ScatterDims.start
  rw [dif_pos (show (0 : Fin 2) ∈ (rowsScatter N M C wf).scatterDimsToOperandDims from List.mem_singleton.mpr rfl)]
  have hsi : (rowsScatter N M C wf).siIdx (ix2 q j') ⟨List.idxOf (0 : Fin 2) (rowsScatter N M C wf).scatterDimsToOperandDims,
      List.idxOf_lt_length_iff.2 (List.mem_singleton.mpr rfl)⟩ = ix2 q 0 := by
    funext b; refine Fin.ext ?_
    match b with
    | ⟨0, _⟩ => rfl
    | ⟨1, _⟩ => rfl
  rw [hsi]

/-- On the column axis it starts at 0. -/
private theorem rows_start1 : (rowsScatter N M C wf).start (ix2 q j') idx 1 = 0 := by
  unfold ScatterDims.start
  rw [dif_neg (show (1 : Fin 2) ∉ ([0] : List (Fin 2)) by decide)]

/-- The row axis is inserted: no window coordinate. -/
private theorem rows_window0 : (rowsScatter N M C wf).window (ix2 q j') 0 = 0 := by
  have h0 : (0 : Fin 2) ∉ (List.finRange 2).filter (fun a => decide (a ∉ ([0] : List (Fin 2)))) := by decide
  unfold ScatterDims.window
  rw [dif_neg (show (0 : Fin 2) ∉ (rowsScatter N M C wf).sKept from h0)]

/-- The column axis carries the update's column. -/
private theorem rows_window1 : (rowsScatter N M C wf).window (ix2 q j') 1 = j'.val := by
  have h1 : (1 : Fin 2) ∈ (List.finRange 2).filter (fun a => decide (a ∉ ([0] : List (Fin 2)))) := by decide
  unfold ScatterDims.window
  rw [dif_pos (show (1 : Fin 2) ∈ (rowsScatter N M C wf).sKept from h1)]
  rfl

/-- Update (q, j') lands at (c, j) exactly when its index names row c inside the table and j' = j. -/
private theorem rows_hit (c : Fin N) (j : Fin C) :
    (rowsScatter N M C wf).resultIdx? (ix2 q j') idx = some (ix2 c j) ↔ RowHit N (idx (ix2 q 0)) c ∧ j' = j := by
  unfold ScatterDims.resultIdx?
  constructor
  · intro h
    split at h
    · rename_i hall
      have hf := Option.some.inj h
      have h0 : ((rowsScatter N M C wf).start (ix2 q j') idx 0 + ((rowsScatter N M C wf).window (ix2 q j') 0 : Nat)).toNat = c.val :=
        congrArg Fin.val (congrFun hf 0)
      have h1 : ((rowsScatter N M C wf).start (ix2 q j') idx 1 + ((rowsScatter N M C wf).window (ix2 q j') 1 : Nat)).toNat = j.val :=
        congrArg Fin.val (congrFun hf 1)
      have ha : 0 ≤ (rowsScatter N M C wf).start (ix2 q j') idx 0 + ((rowsScatter N M C wf).window (ix2 q j') 0 : Nat)
          ∧ (rowsScatter N M C wf).start (ix2 q j') idx 0 + ((rowsScatter N M C wf).window (ix2 q j') 0 : Nat) < (N : Int) := hall 0
      rw [rows_start0, rows_window0] at h0 ha
      rw [rows_start1, rows_window1] at h1
      refine ⟨⟨by omega, by omega, by omega⟩, Fin.ext (by omega)⟩
    · exact absurd h (by simp)
  · rintro ⟨⟨h0, h1, h2⟩, rfl⟩
    have hall : ∀ a, 0 ≤ (rowsScatter N M C wf).start (ix2 q j') idx a + ((rowsScatter N M C wf).window (ix2 q j') a : Nat)
        ∧ (rowsScatter N M C wf).start (ix2 q j') idx a + ((rowsScatter N M C wf).window (ix2 q j') a : Nat) < ((⟨2, ![N, C]⟩ : Shape).size a : Int) := by
      intro a
      match a with
      | ⟨0, _⟩ =>
        show 0 ≤ (rowsScatter N M C wf).start (ix2 q j') idx 0 + ((rowsScatter N M C wf).window (ix2 q j') 0 : Nat)
          ∧ (rowsScatter N M C wf).start (ix2 q j') idx 0 + ((rowsScatter N M C wf).window (ix2 q j') 0 : Nat) < (N : Int)
        rw [rows_start0, rows_window0]; omega
      | ⟨1, _⟩ =>
        show 0 ≤ (rowsScatter N M C wf).start (ix2 q j') idx 1 + ((rowsScatter N M C wf).window (ix2 q j') 1 : Nat)
          ∧ (rowsScatter N M C wf).start (ix2 q j') idx 1 + ((rowsScatter N M C wf).window (ix2 q j') 1 : Nat) < (C : Int)
        rw [rows_start1, rows_window1]; have := j'.isLt; omega
    rw [dif_pos hall]
    congr 1
    funext a
    refine Fin.ext ?_
    match a with
    | ⟨0, _⟩ =>
      show ((rowsScatter N M C wf).start (ix2 q j') idx 0 + ((rowsScatter N M C wf).window (ix2 q j') 0 : Nat)).toNat = c.val
      rw [rows_start0, rows_window0]; omega
    | ⟨1, _⟩ =>
      show ((rowsScatter N M C wf).start (ix2 q j') idx 1 + ((rowsScatter N M C wf).window (ix2 q j') 1 : Nat)).toNat = j'.val
      rw [rows_start1, rows_window1]; omega

end RowsScatter

section VecScatter

variable {N M w : Nat} (wf : ScatterDims.WF ⟨1, ![N]⟩ ⟨2, ![M, 1]⟩ ⟨1, ![M]⟩ [] [0] [0] 1)
  (idx : IVec ⟨2, ![M, 1]⟩ w) (q : Fin M)

/-- The window of update q starts at the q-th index, read signed. -/
private theorem vec_start0 : (vecScatter N M wf).start (ix1 q) idx 0 = (idx (ix2 q 0)).toInt := by
  unfold ScatterDims.start
  rw [dif_pos (show (0 : Fin 1) ∈ (vecScatter N M wf).scatterDimsToOperandDims from List.mem_singleton.mpr rfl)]
  have hsi : (vecScatter N M wf).siIdx (ix1 q) ⟨List.idxOf (0 : Fin 1) (vecScatter N M wf).scatterDimsToOperandDims,
      List.idxOf_lt_length_iff.2 (List.mem_singleton.mpr rfl)⟩ = ix2 q 0 := by
    funext b; refine Fin.ext ?_
    match b with
    | ⟨0, _⟩ => rfl
    | ⟨1, _⟩ => rfl
  rw [hsi]

/-- The table's one axis is inserted: no window coordinate. -/
private theorem vec_window0 : (vecScatter N M wf).window (ix1 q) 0 = 0 := by
  have h0 : (0 : Fin 1) ∉ (List.finRange 1).filter (fun a => decide (a ∉ ([0] : List (Fin 1)))) := by decide
  unfold ScatterDims.window
  rw [dif_neg (show (0 : Fin 1) ∉ (vecScatter N M wf).sKept from h0)]

/-- Update q lands at c exactly when its index names entry c inside the table. -/
private theorem vec_hit (c : Fin N) :
    (vecScatter N M wf).resultIdx? (ix1 q) idx = some (ix1 c) ↔ RowHit N (idx (ix2 q 0)) c := by
  unfold ScatterDims.resultIdx?
  constructor
  · intro h
    split at h
    · rename_i hall
      have hf := Option.some.inj h
      have h0 : ((vecScatter N M wf).start (ix1 q) idx 0 + ((vecScatter N M wf).window (ix1 q) 0 : Nat)).toNat = c.val :=
        congrArg Fin.val (congrFun hf 0)
      have ha : 0 ≤ (vecScatter N M wf).start (ix1 q) idx 0 + ((vecScatter N M wf).window (ix1 q) 0 : Nat)
          ∧ (vecScatter N M wf).start (ix1 q) idx 0 + ((vecScatter N M wf).window (ix1 q) 0 : Nat) < (N : Int) := hall 0
      rw [vec_start0, vec_window0] at h0 ha
      exact ⟨by omega, by omega, by omega⟩
    · exact absurd h (by simp)
  · rintro ⟨h0, h1, h2⟩
    have hall : ∀ a, 0 ≤ (vecScatter N M wf).start (ix1 q) idx a + ((vecScatter N M wf).window (ix1 q) a : Nat)
        ∧ (vecScatter N M wf).start (ix1 q) idx a + ((vecScatter N M wf).window (ix1 q) a : Nat) < ((⟨1, ![N]⟩ : Shape).size a : Int) := by
      intro a
      match a with
      | ⟨0, _⟩ =>
        show 0 ≤ (vecScatter N M wf).start (ix1 q) idx 0 + ((vecScatter N M wf).window (ix1 q) 0 : Nat)
          ∧ (vecScatter N M wf).start (ix1 q) idx 0 + ((vecScatter N M wf).window (ix1 q) 0 : Nat) < (N : Int)
        rw [vec_start0, vec_window0]; omega
    rw [dif_pos hall]
    congr 1
    funext a
    refine Fin.ext ?_
    match a with
    | ⟨0, _⟩ =>
      show ((vecScatter N M wf).start (ix1 q) idx 0 + ((vecScatter N M wf).window (ix1 q) 0 : Nat)).toNat = c.val
      rw [vec_start0, vec_window0]; omega

end VecScatter

/-- THE ROW SCATTER-ADD READ AT (c, j). -/
theorem scatterAdd_rows_apply {N M C w : Nat} {φ : FTy}
    (wf : ScatterDims.WF ⟨2, ![N, C]⟩ ⟨2, ![M, 1]⟩ ⟨2, ![M, C]⟩ [1] [0] [0] 1)
    (x : FVec Ideal ⟨2, ![N, C]⟩ φ) (idx : IVec ⟨2, ![M, 1]⟩ w) (upd : FVec Ideal ⟨2, ![M, C]⟩ φ) (c : Fin N) (j : Fin C) :
    Host.scatterAdd (F := Ideal) (rowsScatter N M C wf) x idx upd (ix2 c j)
      = x (ix2 c j) + ∑ q ∈ Finset.univ.filter (fun q : Fin M => RowHit N (idx (ix2 q 0)) c), upd (ix2 q j) := by
  show Ideal.hostScatterAdd (rowsScatter N M C wf) x idx upd (ix2 c j) = _
  unfold Ideal.hostScatterAdd
  congr 1
  -- an update that lands at (c, j) hits row c and sits in column j
  have key : ∀ i : (⟨2, ![M, C]⟩ : Shape).Idx, (rowsScatter N M C wf).resultIdx? i idx = some (ix2 c j) →
      RowHit N (idx (ix2 (i 0) 0)) c ∧ ix2 (i 0) j = i := by
    intro i hi
    have hi2 : (rowsScatter N M C wf).resultIdx? (ix2 (i 0) (i 1)) idx = some (ix2 c j) :=
      Eq.mp (congrArg (fun t => (rowsScatter N M C wf).resultIdx? t idx = some (ix2 c j)) (eq_ix2 i)) hi
    obtain ⟨hr, hj⟩ := (rows_hit wf idx (i 0) (i 1) c j).mp hi2
    exact ⟨hr, (congrArg (fun t => ix2 (i 0) t) hj).symm.trans (eq_ix2 i).symm⟩
  -- so the updates landing at (c, j) are the (q, j) with q a hit, one for one
  refine Finset.sum_nbij' (fun i => (i 0 : Fin M)) (fun q => ix2 q j) ?_ ?_ ?_ ?_ ?_
  · intro i hi
    exact Finset.mem_filter.mpr ⟨Finset.mem_univ _, (key i (Finset.mem_filter.mp hi).2).1⟩
  · intro q hq
    exact Finset.mem_filter.mpr ⟨Finset.mem_univ _, (rows_hit wf idx q j c j).mpr ⟨(Finset.mem_filter.mp hq).2, rfl⟩⟩
  · intro i hi
    exact (key i (Finset.mem_filter.mp hi).2).2
  · intro q _
    rfl
  · intro i hi
    exact congrArg upd (key i (Finset.mem_filter.mp hi).2).2.symm

/-- THE SCALAR SCATTER-ADD READ AT c. -/
theorem scatterAdd_vec_apply {N M w : Nat} {φ : FTy}
    (wf : ScatterDims.WF ⟨1, ![N]⟩ ⟨2, ![M, 1]⟩ ⟨1, ![M]⟩ [] [0] [0] 1)
    (x : FVec Ideal ⟨1, ![N]⟩ φ) (idx : IVec ⟨2, ![M, 1]⟩ w) (upd : FVec Ideal ⟨1, ![M]⟩ φ) (c : Fin N) :
    Host.scatterAdd (F := Ideal) (vecScatter N M wf) x idx upd (ix1 c)
      = x (ix1 c) + ∑ q ∈ Finset.univ.filter (fun q : Fin M => RowHit N (idx (ix2 q 0)) c), upd (ix1 q) := by
  show Ideal.hostScatterAdd (vecScatter N M wf) x idx upd (ix1 c) = _
  unfold Ideal.hostScatterAdd
  congr 1
  -- an update that lands at c hits entry c
  have key : ∀ i : (⟨1, ![M]⟩ : Shape).Idx, (vecScatter N M wf).resultIdx? i idx = some (ix1 c) →
      RowHit N (idx (ix2 (i 0) 0)) c := by
    intro i hi
    have hi2 : (vecScatter N M wf).resultIdx? (ix1 (i 0)) idx = some (ix1 c) :=
      Eq.mp (congrArg (fun t => (vecScatter N M wf).resultIdx? t idx = some (ix1 c)) (eq_ix1 i)) hi
    exact (vec_hit wf idx (i 0) c).mp hi2
  -- so the updates landing at c are the hits, one for one
  refine Finset.sum_nbij' (fun i => (i 0 : Fin M)) (fun q => ix1 q) ?_ ?_ ?_ ?_ ?_
  · intro i hi
    exact Finset.mem_filter.mpr ⟨Finset.mem_univ _, key i (Finset.mem_filter.mp hi).2⟩
  · intro q hq
    exact Finset.mem_filter.mpr ⟨Finset.mem_univ _, (vec_hit wf idx q c).mpr (Finset.mem_filter.mp hq).2⟩
  · intro i _
    exact (eq_ix1 i).symm
  · intro q _
    rfl
  · intro i _
    exact congrArg upd (eq_ix1 i)

/-- THE ROW GATHER OVER AN A x B ARRAY OF INDICES READ AT (a, b, j). -/
theorem gather_rows3_apply {α : Type} {N C A B w : Nat} (hN : 0 < N)
    (wf : GatherDims.WF ⟨2, ![N, C]⟩ ⟨3, ![A, B, 1]⟩ ⟨3, ![A, B, C]⟩ [2] [0] [] [0] [] 2 ![1, C])
    (x : (⟨2, ![N, C]⟩ : Shape).Idx → α) (idx : IVec ⟨3, ![A, B, 1]⟩ w) (a : Fin A) (b : Fin B) (j : Fin C) :
    Host.gather (rowsGather3 N C A B wf) x idx (ix3 a b j) = x (ix2 (rowClamp N hN (idx (ix3 a b 0))) j) := by
  unfold Host.gather
  congr 1
  funext e
  refine Fin.ext ?_
  match e with
  | ⟨0, _⟩ =>
    show (rowsGather3 N C A B wf).start (ix3 a b j) idx 0 + (rowsGather3 N C A B wf).batchCoord (ix3 a b j) 0
      + (rowsGather3 N C A B wf).offCoord (ix3 a b j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather3 N C A B wf).startIndexMap from List.mem_singleton.mpr rfl)]
    have hsi : (rowsGather3 N C A B wf).siIdx (ix3 a b j) ⟨List.idxOf (0 : Fin 2) (rowsGather3 N C A B wf).startIndexMap,
        List.idxOf_lt_length_iff.2 (List.mem_singleton.mpr rfl)⟩ = ix3 a b 0 := by
      funext b'; refine Fin.ext ?_
      match b' with
      | ⟨0, _⟩ => rfl
      | ⟨1, _⟩ => rfl
      | ⟨2, _⟩ => rfl
    rw [hsi]
    rfl
  | ⟨1, _⟩ =>
    show (rowsGather3 N C A B wf).start (ix3 a b j) idx 1 + (rowsGather3 N C A B wf).batchCoord (ix3 a b j) 1
      + (rowsGather3 N C A B wf).offCoord (ix3 a b j) 1 = j.val
    rw [GatherDims.batchCoord_eq_zero _ _ _ List.not_mem_nil]
    have hs : (rowsGather3 N C A B wf).start (ix3 a b j) idx 1 = 0 := by
      unfold GatherDims.start
      rw [dif_neg (show (1 : Fin 2) ∉ ([0] : List (Fin 2)) by decide)]
    rw [hs]
    simp only [Nat.add_zero, Nat.zero_add]
    unfold GatherDims.offCoord
    rw [dif_pos ((GatherDims.mem_sKept _ _).mpr ⟨(show (1 : Fin 2) ∉ ([0] : List (Fin 2)) by decide), List.not_mem_nil⟩)]
    rfl

/-- THE ROW GATHER OVER AN A x B x D ARRAY OF INDICES READ AT (a, b, d, j). -/
theorem gather_rows4_apply {α : Type} {N C A B D w : Nat} (hN : 0 < N)
    (wf : GatherDims.WF ⟨2, ![N, C]⟩ ⟨4, ![A, B, D, 1]⟩ ⟨4, ![A, B, D, C]⟩ [3] [0] [] [0] [] 3 ![1, C])
    (x : (⟨2, ![N, C]⟩ : Shape).Idx → α) (idx : IVec ⟨4, ![A, B, D, 1]⟩ w) (a : Fin A) (b : Fin B) (d : Fin D) (j : Fin C) :
    Host.gather (rowsGather4 N C A B D wf) x idx (ix4 a b d j) = x (ix2 (rowClamp N hN (idx (ix4 a b d 0))) j) := by
  unfold Host.gather
  congr 1
  funext e
  refine Fin.ext ?_
  match e with
  | ⟨0, _⟩ =>
    show (rowsGather4 N C A B D wf).start (ix4 a b d j) idx 0 + (rowsGather4 N C A B D wf).batchCoord (ix4 a b d j) 0
      + (rowsGather4 N C A B D wf).offCoord (ix4 a b d j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather4 N C A B D wf).startIndexMap from List.mem_singleton.mpr rfl)]
    have hsi : (rowsGather4 N C A B D wf).siIdx (ix4 a b d j) ⟨List.idxOf (0 : Fin 2) (rowsGather4 N C A B D wf).startIndexMap,
        List.idxOf_lt_length_iff.2 (List.mem_singleton.mpr rfl)⟩ = ix4 a b d 0 := by
      funext b'; refine Fin.ext ?_
      match b' with
      | ⟨0, _⟩ => rfl
      | ⟨1, _⟩ => rfl
      | ⟨2, _⟩ => rfl
      | ⟨3, _⟩ => rfl
    rw [hsi]
    rfl
  | ⟨1, _⟩ =>
    show (rowsGather4 N C A B D wf).start (ix4 a b d j) idx 1 + (rowsGather4 N C A B D wf).batchCoord (ix4 a b d j) 1
      + (rowsGather4 N C A B D wf).offCoord (ix4 a b d j) 1 = j.val
    rw [GatherDims.batchCoord_eq_zero _ _ _ List.not_mem_nil]
    have hs : (rowsGather4 N C A B D wf).start (ix4 a b d j) idx 1 = 0 := by
      unfold GatherDims.start
      rw [dif_neg (show (1 : Fin 2) ∉ ([0] : List (Fin 2)) by decide)]
    rw [hs]
    simp only [Nat.add_zero, Nat.zero_add]
    unfold GatherDims.offCoord
    rw [dif_pos ((GatherDims.mem_sKept _ _).mpr ⟨(show (1 : Fin 2) ∉ ([0] : List (Fin 2)) by decide), List.not_mem_nil⟩)]
    rfl

end Cert.LibRows

end
-- ==== Proof.Spec.lean ====
/-
  What both programs compute, stated once.

  Inputs: two feature arrays x1, x2 of 1,000,000 rows and 128 columns, and one label word per row. A row n is normalized by
  its Euclidean norm: nrm x n d = x(n,d) / sqrt(sum over k of x(n,k)^2). Three tables over the 1000 classes follow: the
  number of rows whose label, read as a signed integer, is c (`cntSpec`), and for each feature array the sum over those rows
  of the normalized row (`sumSpec`). A row whose label is not one of 0 .. 999 belongs to no class.

  The rest (`tail`) is the same chain of array operations in both programs: the centers are the sums divided by
  max(count, 1), the per-class value is the sum over the columns of the squared difference of the two centers, hinged at the
  margin, kept only for classes with a positive count, and summed over the classes.
-/
import Idealize.ShloMosaic.PureOps
import Idealize.ShloMosaic.PureOps.Ideal
import Idealize.ShloMosaic.Lib.ValueIdx
import proofs.«400432_j91276644974681_3_alg».proof.Proof.LibRows

noncomputable section

namespace Cert.Spec

open Idealize.ShloMosaic Idealize.ShloMosaic.ValueIdx

/-- The feature arrays' shape, the labels', the two table shapes, the column of counts, and the scalar. -/
abbrev SX : Shape := ⟨2, ![1000000, 128]⟩
abbrev SL : Shape := ⟨1, ![1000000]⟩
abbrev ST : Shape := ⟨2, ![1000, 128]⟩
abbrev SC : Shape := ⟨1, ![1000]⟩
abbrev SC1 : Shape := ⟨2, ![1000, 1]⟩
abbrev S0 : Shape := ⟨0, ![]⟩

section Tail

variable {F : FTy → Type} [FloatOps F]

/-- The common end of both programs, from the table of counts and the two tables of sums to the scalar result. -/
def tail (hb : S0.BroadcastsInDim SC (![] : Fin 0 → Fin SC.rank)) (hb1 : SC.BroadcastsInDim SC1 (![0] : Fin 1 → Fin SC1.rank))
    (hb2 : SC1.BroadcastsInDim ST (![0, 1] : Fin 2 → Fin ST.rank)) (hr1 : ST.ReducesTo [1] SC) (hr0 : SC.ReducesTo [0] S0)
    (h0 : 0 < S0.numel) (cnt : FVec F SC .f32) (s1 s2 : FVec F ST .f32) : FVec F S0 .f32 :=
  Host.reduceAdd
    (select (cmpf .ogt cnt (broadcastInDim SC ![] hb (constant S0 .f32 0x00000000#32)))
      (maximumf
        (subf
          (Host.reduceAdd
            (mulf
              (subf
                (Host.divf s1 (broadcastInDim ST ![0, 1] hb2 (broadcastInDim SC1 ![0] hb1
                  (maximumf cnt (broadcastInDim SC ![] hb (constant S0 .f32 0x3F800000#32))))))
                (Host.divf s2 (broadcastInDim ST ![0, 1] hb2 (broadcastInDim SC1 ![0] hb1
                  (maximumf cnt (broadcastInDim SC ![] hb (constant S0 .f32 0x3F800000#32)))))))
              (subf
                (Host.divf s1 (broadcastInDim ST ![0, 1] hb2 (broadcastInDim SC1 ![0] hb1
                  (maximumf cnt (broadcastInDim SC ![] hb (constant S0 .f32 0x3F800000#32))))))
                (Host.divf s2 (broadcastInDim ST ![0, 1] hb2 (broadcastInDim SC1 ![0] hb1
                  (maximumf cnt (broadcastInDim SC ![] hb (constant S0 .f32 0x3F800000#32))))))))
            (constant S0 .f32 0x00000000#32) hr1 h0)
          (broadcastInDim SC ![] hb (constant S0 .f32 0x3DCCCCCD#32)))
        (broadcastInDim SC ![] hb (constant S0 .f32 0x00000000#32)))
      (broadcastInDim SC ![] hb (constant S0 .f32 0x00000000#32)))
    (constant S0 .f32 0x00000000#32) hr0 h0

end Tail

/-- Row n's sum of squares. -/
def rowSq (x : FVec Ideal SX .f32) (n : Fin 1000000) : EReal := ∑ k : Fin 128, x (ix2 n k) * x (ix2 n k)

/-- Entry (n, d) of the array with every row divided by its Euclidean norm. -/
def nrm (x : FVec Ideal SX .f32) (n : Fin 1000000) (d : Fin 128) : EReal := Ideal.div (x (ix2 n d)) (Ideal.sqrt (rowSq x n))

/-- The rows whose label names class c. -/
def rowsOf (l : IVec SL 32) (c : Fin 1000) : Finset (Fin 1000000) :=
  Finset.univ.filter (fun n : Fin 1000000 => Cert.LibRows.RowHit 1000 (l (ix1 n)) c)

/-- The number of rows of class c. -/
def cntSpec (l : IVec SL 32) (c : Fin 1000) : EReal := ∑ _n ∈ rowsOf l c, (1 : EReal)

/-- Column d of the sum of the normalized rows of class c. -/
def sumSpec (x : FVec Ideal SX .f32) (l : IVec SL 32) (c : Fin 1000) (d : Fin 128) : EReal := ∑ n ∈ rowsOf l c, nrm x n d

/-- For a real entry and a row with a positive real sum of squares, the product with the reciprocal square root is the
    quotient by the square root. -/
theorem mul_rsqrt_eq_div_sqrt (r s : ℝ) (hs : 0 < s) :
    ((r : ℝ) : EReal) * Ideal.rsqrt ((s : ℝ) : EReal) = Ideal.div ((r : ℝ) : EReal) (Ideal.sqrt ((s : ℝ) : EReal)) := by
  have hq : Real.sqrt s ≠ 0 := (Real.sqrt_pos.mpr hs).ne'
  rw [Ideal.rsqrt_coe, Ideal.sqrt_coe, if_neg (not_lt.mpr hs.le), if_neg (not_lt.mpr hs.le), if_neg hs.ne',
    Ideal.div_coe hq, one_div]

end Cert.Spec

end
-- ==== Proof.LibColumn.lean ====
/-
  A column kept as a unit axis: the two layout steps of a row reduction with `keepdims`.

  A length-`a` vector cast to an `[a, 1]` column reads, at `(i, 0)`, the vector at `i`; an `[a, 1]` column broadcast
  to `[a, b]` reads, at `(i, j)`, the column at `(i, 0)`. General in `a` and `b` and in the element type.
  Also the two float words a row maximum and a reciprocal start from: −∞ and 1.
-/
import Idealize.ShloMosaic.Lib.Pipeline.Value
import Idealize.ShloMosaic.Lib.ValueIdx
import Idealize.ShloMosaic.PureOps.Ideal

noncomputable section

namespace Idealize.ShloMosaic.Column

open Idealize.ShloMosaic Idealize.ShloMosaic.ValueIdx

variable {α : Type}

/-- A vector `[a]` cast to a column `[a, 1]` reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

/-- The f32 word `0xFF800000` denotes −∞. -/
theorem ofBits_negInf_f32 : Ideal.ofBits .f32 0xFF800000#32 = (⊥ : EReal) := by
  simp [Ideal.ofBits, Ideal.ieee]

/-- The f32 word `0x3F800000` denotes 1. -/
theorem ofBits_one_f32 : Ideal.ofBits .f32 0x3F800000#32 = (1 : EReal) := by
  have h : Ideal.ofBits .f32 0x3F800000#32 = ((1 : ℝ) : EReal) := by
    simp [Ideal.ofBits, Ideal.ieee, -EReal.coe_mul]; norm_num
  rw [h, EReal.coe_one]

end Idealize.ShloMosaic.Column

end
-- ==== Proof.RefTables.lean ====
/-
  The reference program's three tables read at an index, and its result as the common tail of those tables.

  Each of the three accumulating scatters starts from a table of zeros and takes one index per row, the row's label. Read
  at an index, the table of counts at class c is the sum of 1 over the rows whose label names c; a table of sums at
  (c, d) is the sum over those rows of column d of the row divided by its Euclidean norm. What the program does after
  the three tables is, operation for operation, the common chain of the specification.
-/
import proofs.«400432_j91276644974681_3_alg».proof.Proof.RefRead
import proofs.«400432_j91276644974681_3_alg».proof.Proof.Spec
import proofs.«400432_j91276644974681_3_alg».proof.Proof.LibColumn

noncomputable section

namespace Cert.RefTables

open Cert.ReferenceIdeal Cert.ReferenceIdeal.Gen Cert.ReferenceIdeal.ReadP Cert.Spec Idealize.ShloMosaic Idealize.ShloMosaic.ValueIdx

/-! ## The two scatter records -/

/-- The record of the two row scatters is the scatter of 1000000 rows of 128 columns into a table of 1000 rows. -/
theorem rows_record : scatter_S1000x128_S1000000x1_S1000000x128_1_0_0_1
    = Cert.LibRows.rowsScatter 1000 1000000 128 scatter_S1000x128_S1000000x1_S1000000x128_1_0_0_1_wf := rfl

/-- The record of the scalar scatter is the scatter of 1000000 scalars into a table of 1000 scalars. -/
theorem vec_record : scatter_S1000_S1000000x1_S1000000_n_0_0_1
    = Cert.LibRows.vecScatter 1000 1000000 scatter_S1000_S1000000x1_S1000000_n_0_0_1_wf := rfl

/-! ## The normalized rows -/

/-- Entry (q, d) of the first normalized array: the entry divided by the square root of its row's sum of squares. -/
theorem normalized1_apply (x : FVec Ideal S1000000x128 .f32) (q : Fin 1000000) (d : Fin 128) :
    val_main_v5 (F := Ideal) x (ix2 q d) = nrm x q d := by
  rw [val_main_v5_apply, val_main_v4_apply, val_main_v3_apply, val_main_v2_apply, val_main_v1_apply, val_main_cst_apply,
    Ideal.hostDivf_def, Ideal.hostUnary_sqrt_def, Ideal.ofBits_def, Ideal.ofBits_zero_f32, zero_add]
  unfold nrm rowSq
  refine congrArg (fun t => Ideal.div (x (ix2 q d)) (Ideal.sqrt t)) (Finset.sum_congr rfl fun k _ => ?_)
  rw [val_main_v0_apply, Ideal.mulf_def]
  have hk : idx_main_v1 (idx_main_v2 (idx_main_v4 (ix2 q d))) k = ix2 q k :=
    funext fun a => Fin.ext (by match a with | ⟨0, _⟩ => rfl | ⟨1, _⟩ => rfl)
  rw [hk]

/-- Entry (q, d) of the second normalized array, the same function of the second feature array. -/
theorem normalized2_apply (x : FVec Ideal S1000000x128 .f32) (q : Fin 1000000) (d : Fin 128) :
    val_main_v11 (F := Ideal) x (ix2 q d) = nrm x q d := by
  rw [val_main_v11_apply, val_main_v10_apply, val_main_v9_apply, val_main_v8_apply, val_main_v7_apply, val_main_cst_0_apply,
    Ideal.hostDivf_def, Ideal.hostUnary_sqrt_def, Ideal.ofBits_def, Ideal.ofBits_zero_f32, zero_add]
  unfold nrm rowSq
  refine congrArg (fun t => Ideal.div (x (ix2 q d)) (Ideal.sqrt t)) (Finset.sum_congr rfl fun k _ => ?_)
  rw [val_main_v6_apply, Ideal.mulf_def]
  have hk : idx_main_v7 (idx_main_v8 (idx_main_v10 (ix2 q d))) k = ix2 q k :=
    funext fun a => Fin.ext (by match a with | ⟨0, _⟩ => rfl | ⟨1, _⟩ => rfl)
  rw [hk]

/-! ## The index of an update is its row's label -/

theorem index15_apply (l : IVec S1000000 32) (q : Fin 1000000) :
    val_main_v14 (F := Ideal) l (ix2 q 0) = l (ix1 q) := by
  rw [val_main_v14_apply]
  exact congrArg l (funext fun a => Fin.ext (by match a with | ⟨0, _⟩ => rfl))

theorem index18_apply (l : IVec S1000000 32) (q : Fin 1000000) :
    val_main_v17 (F := Ideal) l (ix2 q 0) = l (ix1 q) := by
  rw [val_main_v17_apply]
  exact congrArg l (funext fun a => Fin.ext (by match a with | ⟨0, _⟩ => rfl))

theorem index21_apply (l : IVec S1000000 32) (q : Fin 1000000) :
    val_main_v20 (F := Ideal) l (ix2 q 0) = l (ix1 q) := by
  rw [val_main_v20_apply]
  exact congrArg l (funext fun a => Fin.ext (by match a with | ⟨0, _⟩ => rfl))

/-! ## The three tables -/

/-- The table of counts at class c: the number of rows whose label names c. -/
theorem counts_apply (l : IVec S1000000 32) (c : Fin 1000) :
    val_main_v15 (F := Ideal) l (ix1 c) = cntSpec l c := by
  unfold val_main_v15
  rw [vec_record, Cert.LibRows.scatterAdd_vec_apply, val_main_v13_apply, val_main_cst_2_apply, Ideal.ofBits_def,
    Ideal.ofBits_zero_f32, zero_add]
  unfold cntSpec rowsOf
  simp only [index15_apply]
  refine Finset.sum_congr rfl fun q _ => ?_
  rw [val_main_v12_apply, val_main_cst_1_apply, Ideal.ofBits_def, Idealize.ShloMosaic.Column.ofBits_one_f32]

/-- The first table of sums at (c, d): the sum over the rows of class c of the normalized row's column d. -/
theorem sums1_apply (x : FVec Ideal S1000000x128 .f32) (l : IVec S1000000 32) (c : Fin 1000) (d : Fin 128) :
    val_main_v18 (F := Ideal) x l (ix2 c d) = sumSpec x l c d := by
  unfold val_main_v18
  rw [rows_record, Cert.LibRows.scatterAdd_rows_apply, val_main_v16_apply, val_main_cst_3_apply, Ideal.ofBits_def,
    Ideal.ofBits_zero_f32, zero_add]
  unfold sumSpec rowsOf
  simp only [index18_apply]
  exact Finset.sum_congr rfl fun q _ => normalized1_apply x q d

/-- The second table of sums, the same function of the second feature array. -/
theorem sums2_apply (x : FVec Ideal S1000000x128 .f32) (l : IVec S1000000 32) (c : Fin 1000) (d : Fin 128) :
    val_main_v21 (F := Ideal) x l (ix2 c d) = sumSpec x l c d := by
  unfold val_main_v21
  rw [rows_record, Cert.LibRows.scatterAdd_rows_apply, val_main_v19_apply, val_main_cst_4_apply, Ideal.ofBits_def,
    Ideal.ofBits_zero_f32, zero_add]
  unfold sumSpec rowsOf
  simp only [index21_apply]
  exact Finset.sum_congr rfl fun q _ => normalized2_apply x q d

/-! ## The rest of the program -/

/-- The reference's result is the common tail of its three tables (any float family). -/
theorem result_eq_tail {F : FTy → Type} [FloatOps F] (x0 x1 : FVec F S1000000x128 .f32) (l : IVec S1000000 32) :
    val_main_v39 (F := F) x0 x1 l
      = tail bcast_S_S1000 bcast_S1000_S1000x1_0 bcast_S1000x1_S1000x128_0_1 reducesTo_S1000x128_S1000_d1 reducesTo_S1000_S_d0 h_S_
          (val_main_v15 (F := F) l) (val_main_v18 (F := F) x0 l) (val_main_v21 (F := F) x1 l) := by
  unfold val_main_v39 val_main_v38 val_main_v37 val_main_v36 val_main_v35 val_main_v34 val_main_v33 val_main_v32 val_main_v31
    val_main_v30 val_main_v29 val_main_v28 val_main_v27 val_main_v26 val_main_v25 val_main_v24 val_main_v23 val_main_v22
    val_main_call0_v1 val_main_call0_v0 val_main_cst_5 val_main_cst_6 val_main_cst_7 val_main_cst_8 val_main_cst_9
    val_main_cst_10 val_main_cst_11 tail
  rfl

end Cert.RefTables

end
-- ==== Proof.KernelTail.lean ====
/-
  The kernel program after its region: the result as the common tail of three tables cut out of the region's two output
  arrays, and those tables read at an index.

  The region leaves an array of per-half sums, f32[2, 1024, 256], and an array of per-half counts, f32[2, 1, 1024]. The
  host adds the two halves of each (a sum over the first axis, started from zero), keeps classes 0 to 999 of the counts as
  a vector, and cuts the sums into columns 0 to 127 and 128 to 255 of classes 0 to 999. From those three tables on, the
  program's operations are, one for one, the common chain of the specification. Read at an index, an entry of a table is
  the sum of the two halves' entries at the same class (and column).
-/
import proofs.«400432_j91276644974681_3_alg».proof.Proof.Gen.KernelIdeal.Frame
import proofs.«400432_j91276644974681_3_alg».proof.Proof.Spec
import Idealize.ShloMosaic.Lib.Pipeline.Value
import Idealize.ShloMosaic.Lib.StableHlo.Run
import Idealize.ShloMosaic.PureOps.Ideal.Laws

noncomputable section

namespace Cert.KernelIdeal.TailValue

open Cert.KernelIdeal Cert.KernelIdeal.Gen Cert.Spec Idealize.ShloMosaic Idealize.ShloMosaic.TcCoe Idealize.ShloMosaic.ValueIdx Idealize.SL.Sem

variable {F : FTy → Type} [FloatOps F]

/-- The table of counts cut from the array of per-half counts: the two halves added, classes 0 to 999. -/
def countsOf (a4 : FVec F S2x1x1024 .f32) : FVec F S1000 .f32 :=
  shapeCast S1000 (extractStridedSlice S1x1000 ![0, 0] (Host.reduceAdd a4 (constant S_ .f32 0x00000000#32) reducesTo_S2x1x1024_S1x1024_d0 h_S_) slices_S1x1024_S1x1000_0_0) shapeCasts_S1x1000_S1000
/-- The first table of sums cut from the array of per-half sums: the two halves added, classes 0 to 999, columns 0 to 127. -/
def sums1Of (a3 : FVec F S2x1024x256 .f32) : FVec F S1000x128 .f32 :=
  extractStridedSlice S1000x128 ![0, 0] (Host.reduceAdd a3 (constant S_ .f32 0x00000000#32) reducesTo_S2x1024x256_S1024x256_d0 h_S_) slices_S1024x256_S1000x128_0_0
/-- The second table of sums: the two halves added, classes 0 to 999, columns 128 to 255. -/
def sums2Of (a3 : FVec F S2x1024x256 .f32) : FVec F S1000x128 .f32 :=
  extractStridedSlice S1000x128 ![0, 128] (Host.reduceAdd a3 (constant S_ .f32 0x00000000#32) reducesTo_S2x1024x256_S1024x256_d0 h_S_) slices_S1024x256_S1000x128_0_128

/-! ## The host operations after the region -/

set_option maxRecDepth 8192 in
set_option maxHeartbeats 2000000 in
/-- The 35 host operations after the region, run from any contents W of the core's buffers: the result buffer holds the
    common tail of the three tables cut out of W's two output arrays. -/
theorem after_tail (W : Valuation τ sig (Elt F)) :
    StableHlo.after (List.flatten [hostOps1, hostOps1_1, hostOps1_2]) W (Proc.devRef .tc main_v27)
      = tail bcast_S_S1000 bcast_S1000_S1000x1_0 bcast_S1000x1_S1000x128_0_1 reducesTo_S1000x128_S1000_d1 reducesTo_S1000_S_d0 h_S_
          (countsOf (W (Proc.devRef .tc main_v3_1))) (sums1Of (W (Proc.devRef .tc main_v3_0))) (sums2Of (W (Proc.devRef .tc main_v3_0))) := by
  simp only [hostOps1, hostOps1_1, hostOps1_2, List.flatten_cons, List.flatten_nil, List.append_nil, List.cons_append, List.nil_append]
  after_results_simp
  unfold countsOf sums1Of sums2Of tail
  rfl

/-- The program's result buffer after the host operations that follow the region, in terms of the region's two output arrays. -/
theorem result_eq_tail (m : (ℓ : Loc nD τ sig) → Buf (Elt F) ℓ) (c : Dev nD) :
    Pipeline.afterTail₀ cfgs (dats m) 0 (V0 m) [hostOps1, hostOps1_1, hostOps1_2] c main_v27
      = tail bcast_S_S1000 bcast_S1000_S1000x1_0 bcast_S1000x1_S1000x128_0_1 reducesTo_S1000x128_S1000_d1 reducesTo_S1000_S_d0 h_S_
          (countsOf ((dats m 0 c).arrAt 4 cfg0.N)) (sums1Of ((dats m 0 c).arrAt 3 cfg0.N)) (sums2Of ((dats m 0 c).arrAt 3 cfg0.N)) := by
  have h3 : Pipeline.withArrays spec0 c (V0 m c) (fun w => (dats m 0 c).arrAt w cfg0.N) (Proc.devRef .tc main_v3_0)
      = (dats m 0 c).arrAt 3 cfg0.N := Pipeline.withArrays_arr spec0 launch0.win.arr_inj c _ _ 3
  have h4 : Pipeline.withArrays spec0 c (V0 m c) (fun w => (dats m 0 c).arrAt w cfg0.N) (Proc.devRef .tc main_v3_1)
      = (dats m 0 c).arrAt 4 cfg0.N := Pipeline.withArrays_arr spec0 launch0.win.arr_inj c _ _ 4
  unfold Pipeline.afterTail₀
  refine (after_tail _).trans ?_
  rw [h3, h4]

/-! ## The three tables read at an index -/

/-- The sum over the first axis of a [2, 1024, 256] array, started from zero, at (i, j): the two halves' entries added. -/
theorem halves3_apply (a3 : FVec Ideal S2x1024x256 .f32) (i : Fin 1024) (j : Fin 256) :
    Host.reduceAdd (F := Ideal) a3 (constant S_ .f32 0x00000000#32) reducesTo_S2x1024x256_S1024x256_d0 h_S_ (ix2 i j)
      = a3 (ix3 0 i j) + a3 (ix3 1 i j) := by
  simp only [Host.reduceAdd, Ideal.hostReduceAdd_def]
  rw [Ideal.hostReduceAdd_single reducesTo_S2x1024x256_S1024x256_d0 (by decide)]
  rw [constant_apply, Ideal.ofBits_zero_f32, zero_add]
  refine (Fin.sum_univ_two _).trans ?_
  congr 1 <;> exact congrArg a3 (funext fun a => Fin.ext (by match a with | ⟨0, _⟩ => rfl | ⟨1, _⟩ => rfl | ⟨2, _⟩ => rfl))

/-- The sum over the first axis of a [2, 1, 1024] array, started from zero, at (0, j): the two halves' entries added. -/
theorem halves4_apply (a4 : FVec Ideal S2x1x1024 .f32) (i : Fin 1) (j : Fin 1024) :
    Host.reduceAdd (F := Ideal) a4 (constant S_ .f32 0x00000000#32) reducesTo_S2x1x1024_S1x1024_d0 h_S_ (ix2 i j)
      = a4 (ix3 0 i j) + a4 (ix3 1 i j) := by
  simp only [Host.reduceAdd, Ideal.hostReduceAdd_def]
  rw [Ideal.hostReduceAdd_single reducesTo_S2x1x1024_S1x1024_d0 (by decide)]
  rw [constant_apply, Ideal.ofBits_zero_f32, zero_add]
  refine (Fin.sum_univ_two _).trans ?_
  congr 1 <;> exact congrArg a4 (funext fun a => Fin.ext (by match a with | ⟨0, _⟩ => rfl | ⟨1, _⟩ => rfl | ⟨2, _⟩ => rfl))

/-- The table of counts at class c: the two halves' counts of class c added. -/
theorem countsOf_apply (a4 : FVec Ideal S2x1x1024 .f32) (c : Fin 1000) :
    countsOf (F := Ideal) a4 (ix1 c) = a4 (ix3 0 0 ⟨c.val, by have := c.isLt; omega⟩) + a4 (ix3 1 0 ⟨c.val, by have := c.isLt; omega⟩) := by
  unfold countsOf
  rw [shapeCast_apply _ shapeCasts_S1x1000_S1000 (ix1 c) (ix2 (0 : Fin 1) c) (by
    rw [Shape.rowMajor_val_two, Shape.rowMajor_val_one]
    show 0 * 1000 + c.val = c.val
    omega)]
  unfold extractStridedSlice
  rw [← halves4_apply a4 0 ⟨c.val, by have := c.isLt; omega⟩]
  refine congrArg _ (funext fun a => Fin.ext ?_)
  match a with
  | ⟨0, _⟩ => rfl
  | ⟨1, _⟩ => show 0 + c.val = c.val; omega

/-- The first table of sums at (c, d): the two halves' sums of class c in column d added. -/
theorem sums1Of_apply (a3 : FVec Ideal S2x1024x256 .f32) (c : Fin 1000) (d : Fin 128) :
    sums1Of (F := Ideal) a3 (ix2 c d) = a3 (ix3 0 ⟨c.val, by have := c.isLt; omega⟩ ⟨d.val, by have := d.isLt; omega⟩) + a3 (ix3 1 ⟨c.val, by have := c.isLt; omega⟩ ⟨d.val, by have := d.isLt; omega⟩) := by
  unfold sums1Of extractStridedSlice
  rw [← halves3_apply a3 ⟨c.val, by have := c.isLt; omega⟩ ⟨d.val, by have := d.isLt; omega⟩]
  refine congrArg _ (funext fun a => Fin.ext ?_)
  match a with
  | ⟨0, _⟩ => show 0 + c.val = c.val; omega
  | ⟨1, _⟩ => show 0 + d.val = d.val; omega

/-- The second table of sums at (c, d): the two halves' sums of class c in column 128 + d added. -/
theorem sums2Of_apply (a3 : FVec Ideal S2x1024x256 .f32) (c : Fin 1000) (d : Fin 128) :
    sums2Of (F := Ideal) a3 (ix2 c d) = a3 (ix3 0 ⟨c.val, by have := c.isLt; omega⟩ ⟨128 + d.val, by have := d.isLt; omega⟩) + a3 (ix3 1 ⟨c.val, by have := c.isLt; omega⟩ ⟨128 + d.val, by have := d.isLt; omega⟩) := by
  unfold sums2Of extractStridedSlice
  rw [← halves3_apply a3 ⟨c.val, by have := c.isLt; omega⟩ ⟨128 + d.val, by have := d.isLt; omega⟩]
  refine congrArg _ (funext fun a => Fin.ext ?_)
  match a with
  | ⟨0, _⟩ => show 0 + c.val = c.val; omega
  | ⟨1, _⟩ => rfl

end Cert.KernelIdeal.TailValue

end
-- ==== Proof.KernelRun.lean ====
/-
  The kernel program's run, re-posted: on every core the result buffer ends at the common tail of the three tables cut
  from the two output arrays the region leaves, and the three arguments end as they were launched.
-/
import proofs.«400432_j91276644974681_3_alg».proof.Proof.KernelTail

noncomputable section

namespace Cert.KernelIdeal.RunValue

open Cert.KernelIdeal Cert.KernelIdeal.Gen Cert.KernelIdeal.TailValue Cert.Spec Idealize.ShloMosaic Idealize.ShloMosaic.TcCoe Idealize.SL.Sem

variable {F : FTy → Type} [FloatOps F]

/-- Every weakly fair execution of the kernel program terminates with its result at the common tail of the tables cut
    from the two output arrays the region leaves, and its arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v27)
        = tail bcast_S_S1000 bcast_S1000_S1000x1_0 bcast_S1000x1_S1000x128_0_1 reducesTo_S1000x128_S1000_d1 reducesTo_S1000_S_d0 h_S_
            (countsOf ((dats m 0 c).arrAt 4 cfg0.N)) (sums1Of ((dats m 0 c).arrAt 3 cfg0.N)) (sums2Of ((dats m 0 c).arrAt 3 cfg0.N))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v27 (Pipeline.mem_restRefs_of main_v27 (by decide) (by decide))).trans (result_eq_tail m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.RunValue

end
-- ==== Proof.PointValue.lean ====
/-
  What one run of the kernel body leaves in its two output blocks, as values.

  The body adds, to the block of running sums it finds (or to a block of zeros it has just stored, at the first point of each
  half), the product of the transposed one-hot matrix of the point's 4000 labels with the point's 4000 normalized rows of both
  feature blocks side by side; and to the running counts the column sums of the one-hot matrix. Each output ends holding the
  payload of its last store, whose loads read whole buffers.
-/
import proofs.«400432_j91276644974681_3_alg».proof.Proof.Gen.KernelIdeal.Frame
import Idealize.ShloMosaic.Lib.Pipeline.Value
import Idealize.ShloMosaic.Lib.Tactic

noncomputable section

namespace Cert.KernelIdeal.PointValue

open Idealize.ShloMosaic Idealize.ShloMosaic.TcCoe Idealize.SL.Sem
open Cert.KernelIdeal Cert.KernelIdeal.Gen

variable {F : FTy → Type} [FloatOps F]

/-- The zero offsets of a rank-3 block. -/
theorem hz3 : (![0, 0, 0] : Fin 3 → Nat) = fun _ => 0 := funext fun a => by fin_cases a <;> rfl

/-- At a later point of a half the block of sums ends at what it held plus the point's product. -/
theorem sums_later (c : Dev nD) (i : grid0.Coords) (a2 : Memref sig .tc .vmem S1x4000x128 .f32) (h2 : a2.IsWhole) (a3 : Memref sig .tc .vmem S1x4000x128 .f32) (h3 : a3.IsWhole) (a4 : Memref sig .tc .vmem S1x4000x1 .i32) (h4 : a4.IsWhole) (a5 : Memref sig .tc .vmem S1x1024x256 .f32) (h5 : a5.IsWhole) (a6 : Memref sig .tc .vmem S1x1x1024 .f32) (h6 : a6.IsWhole) (hc : ¬cond0_0 i)
    (x0 x1 : Vec F S1x4000x128 .f32) (x2 : Vec F S1x4000x1 .i32) (xo3 : Vec F S1x1024x256 .f32) (xo4 : Vec F S1x1x1024 .f32) :
    out0_B_3 c i a2 h2 a3 h3 a4 h4 a5 h5 a6 h6 hc x0 x1 x2 xo3 xo4 = k0_pay1 (k0_pay7 x0 x1 x2 xo3) := by
  unfold out0_B_3
  rw [View.read_writes_eq_canon _ _ _ (cover0_B_3 c i a2 h2 a3 h3 a4 h4 a5 h5 a6 h6 hc x0 x1 x2 xo3 xo4)]
  unfold kernelRun0_B
  dsimp only
  sl_unfold_words
  rw [View.canon_unit_zero hz3]
  simp only [View.readAt_eq_ld, h2.read_unread, h3.read_unread, h4.read_unread, h5.read_unread,
    View.ld_unit_zero (S := S1x4000x128) hz3, View.ld_unit_zero (S := S1x4000x1) hz3, View.ld_unit_zero (S := S1x1024x256) hz3]

/-- At a later point of a half the block of counts ends at what it held plus the point's column sums. -/
theorem counts_later (c : Dev nD) (i : grid0.Coords) (a2 : Memref sig .tc .vmem S1x4000x128 .f32) (h2 : a2.IsWhole) (a3 : Memref sig .tc .vmem S1x4000x128 .f32) (h3 : a3.IsWhole) (a4 : Memref sig .tc .vmem S1x4000x1 .i32) (h4 : a4.IsWhole) (a5 : Memref sig .tc .vmem S1x1024x256 .f32) (h5 : a5.IsWhole) (a6 : Memref sig .tc .vmem S1x1x1024 .f32) (h6 : a6.IsWhole) (hc : ¬cond0_0 i)
    (x0 x1 : Vec F S1x4000x128 .f32) (x2 : Vec F S1x4000x1 .i32) (xo3 : Vec F S1x1024x256 .f32) (xo4 : Vec F S1x1x1024 .f32) :
    out0_B_4 c i a2 h2 a3 h3 a4 h4 a5 h5 a6 h6 hc x0 x1 x2 xo3 xo4 = k0_pay2 (k0_pay6 x2) xo4 := by
  unfold out0_B_4
  rw [View.read_writes_eq_canon _ _ _ (cover0_B_4 c i a2 h2 a3 h3 a4 h4 a5 h5 a6 h6 hc x0 x1 x2 xo3 xo4)]
  unfold kernelRun0_B
  dsimp only
  sl_unfold_words
  rw [View.canon_unit_zero hz3]
  simp only [View.readAt_eq_ld, h4.read_unread, h6.read_unread,
    View.ld_unit_zero (S := S1x4000x1) hz3, View.ld_unit_zero (S := S1x1x1024) hz3]

/-- At the first point of a half the block of sums ends at the zero block plus the point's product. -/
theorem sums_first (c : Dev nD) (i : grid0.Coords) (a2 : Memref sig .tc .vmem S1x4000x128 .f32) (h2 : a2.IsWhole) (a3 : Memref sig .tc .vmem S1x4000x128 .f32) (h3 : a3.IsWhole) (a4 : Memref sig .tc .vmem S1x4000x1 .i32) (h4 : a4.IsWhole) (a5 : Memref sig .tc .vmem S1x1024x256 .f32) (h5 : a5.IsWhole) (a6 : Memref sig .tc .vmem S1x1x1024 .f32) (h6 : a6.IsWhole) (hc : cond0_0 i)
    (x0 x1 : Vec F S1x4000x128 .f32) (x2 : Vec F S1x4000x1 .i32) :
    out0_A_3 c i a2 h2 a3 h3 a4 h4 a5 h5 a6 h6 hc x0 x1 x2 = k0_pay1 (k0_pay7 x0 x1 x2 k0_pay3) := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_cons_unit_zero (S := S1x1024x256) hz3]
  simp only [View.readAt_eq_ld, h2.read_unread, h3.read_unread, h4.read_unread, View.readCov_unit_zero (S := S1x1024x256) _ hz3,
    View.ld_unit_zero (S := S1x4000x128) hz3, View.ld_unit_zero (S := S1x4000x1) hz3, View.ld_unit_zero (S := S1x1024x256) hz3]

/-- At the first point of a half the block of counts ends at the zero block plus the point's column sums. -/
theorem counts_first (c : Dev nD) (i : grid0.Coords) (a2 : Memref sig .tc .vmem S1x4000x128 .f32) (h2 : a2.IsWhole) (a3 : Memref sig .tc .vmem S1x4000x128 .f32) (h3 : a3.IsWhole) (a4 : Memref sig .tc .vmem S1x4000x1 .i32) (h4 : a4.IsWhole) (a5 : Memref sig .tc .vmem S1x1024x256 .f32) (h5 : a5.IsWhole) (a6 : Memref sig .tc .vmem S1x1x1024 .f32) (h6 : a6.IsWhole) (hc : cond0_0 i)
    (x0 x1 : Vec F S1x4000x128 .f32) (x2 : Vec F S1x4000x1 .i32) :
    out0_A_4 c i a2 h2 a3 h3 a4 h4 a5 h5 a6 h6 hc x0 x1 x2 = k0_pay2 (k0_pay6 x2) k0_pay4 := by
  unfold out0_A_4
  rw [View.read_writes_eq_canon _ _ _ (cover0_A_4 c i a2 h2 a3 h3 a4 h4 a5 h5 a6 h6 hc x0 x1 x2)]
  unfold kernelRun0_A
  dsimp only
  sl_unfold_words
  rw [View.canon_cons_unit_zero (S := S1x1x1024) hz3]
  simp only [View.readAt_eq_ld, h4.read_unread, View.readCov_unit_zero (S := S1x1x1024) _ hz3,
    View.ld_unit_zero (S := S1x4000x1) hz3, View.ld_unit_zero (S := S1x1x1024) hz3]

end Cert.KernelIdeal.PointValue

end
-- ==== Proof.BlockSpec.lean ====
/-
  One grid point's contribution, as plain functions of the point's three input blocks.

  A point holds 4000 rows: two feature blocks of 128 columns and one label word per row. `hot w c` is 1 when the label word w
  is the class number c (as a 32-bit word) and 0 otherwise; `rown x t d` is row t of the block x scaled by the reciprocal
  square root of the row's sum of squares; `cat x0 x1 t e` is column e of the two scaled rows laid side by side (columns 0 to
  127 from the first block, 128 to 255 from the second).
-/
import Idealize.ShloMosaic.PureOps
import Idealize.ShloMosaic.PureOps.Ideal
import Idealize.ShloMosaic.Lib.ValueIdx

noncomputable section

namespace Cert.BlockSpec

open Idealize.ShloMosaic Idealize.ShloMosaic.ValueIdx

/-- A feature block, a label block, the block of sums and the block of counts. -/
abbrev SB : Shape := ⟨3, ![1, 4000, 128]⟩
abbrev SLB : Shape := ⟨3, ![1, 4000, 1]⟩
abbrev SS : Shape := ⟨3, ![1, 1024, 256]⟩
abbrev SK : Shape := ⟨3, ![1, 1, 1024]⟩

/-- 1 when the label word is the class number, else 0. -/
def hot (w : BitVec 32) (c : Fin 1024) : EReal := if w = BitVec.ofNat 32 c.val then 1 else 0

/-- Row t of a feature block, scaled by the reciprocal square root of its sum of squares. -/
def rown (x : SB.Idx → EReal) (t : Fin 4000) (d : Fin 128) : EReal :=
  x (ix3 0 t d) * Ideal.rsqrt (∑ k : Fin 128, x (ix3 0 t k) * x (ix3 0 t k))

/-- Column e of the two scaled rows side by side. -/
def cat (x0 x1 : SB.Idx → EReal) (t : Fin 4000) (e : Fin 256) : EReal :=
  if h : e.val < 128 then rown x0 t ⟨e.val, h⟩ else rown x1 t ⟨e.val - 128, by have := e.isLt; omega⟩

/-- The point's contribution to the block of sums at class c, column e. -/
def contrib (x0 x1 : SB.Idx → EReal) (l : SLB.Idx → BitVec 32) (c : Fin 1024) (e : Fin 256) : EReal :=
  ∑ t : Fin 4000, hot (l (ix3 0 t 0)) c * cat x0 x1 t e

/-- The point's contribution to the block of counts at class c. -/
def tally (l : SLB.Idx → BitVec 32) (c : Fin 1024) : EReal := ∑ t : Fin 4000, hot (l (ix3 0 t 0)) c

end Cert.BlockSpec

end
-- ==== Proof.PayloadValue.lean ====
import proofs.«400432_j91276644974681_3_alg».proof.Proof.Gen.KernelIdeal.Skeleton
import proofs.«400432_j91276644974681_3_alg».proof.Proof.BlockSpec
import proofs.«400432_j91276644974681_3_alg».proof.Proof.LibColumn
import Idealize.ShloMosaic.Lib.Pipeline.Value
import Idealize.ShloMosaic.Lib.ValueIdx
import Idealize.ShloMosaic.Lib.ValueLayout
import Idealize.ShloMosaic.PureOps.Ideal.Laws

/-!
  The kernel body's two computed values read at an index, at the ideal (extended-real) instance.

  One grid point loads two feature blocks x0, x1 : [1, 4000, 128], a label block l : [1, 4000, 1], and the running
  blocks of sums [1, 1024, 256] and of counts [1, 1, 1024]. It forms
    * the mask M (t, c) = [ l (t) = c ] as a float, a [4000, 1024] array of zeros and ones;
    * each feature block with every row scaled by the reciprocal square root of the row's sum of squares, and the two
      scaled blocks side by side, a [4000, 256] array N;
    * the product Mᵀ N, whose entry (c, e) is ∑ t, M (t, c) * N (t, e), added to the block of sums;
    * the column sums of M, whose entry c is ∑ t, M (t, c), added to the block of counts.
  Each step is read at one index: a shape cast between [1, a, b] and [a, b] keeps the coordinates, a column [a, 1]
  broadcast along the rows reads (i, 0), a row [1, b] broadcast down the columns reads (0, j), a sum along one axis is
  the finite sum over that axis's coordinate, a narrowing of the float format is the identity on extended reals, and a
  product contracted over the first axis of both operands is the sum over that axis's coordinate.
-/

noncomputable section

namespace Cert.KernelIdeal.PayloadValue
open Cert.KernelIdeal Cert.KernelIdeal.Gen Cert.BlockSpec Idealize.ShloMosaic Idealize.ShloMosaic.ValueIdx

/-! ## Sums along one axis -/

/-- The sum of a [4000, 128] array along its second axis, at row t: the sum over the 128 columns. -/
theorem rowsum_apply (v : FVec Ideal S4000x128 .f32) (t : Fin 4000) :
    multiReduction (F := Ideal) .add [1] S4000 v 0x00000000#32 reduces_S4000x128_S4000 (.inl rfl) rfl (ix1 t)
      = ∑ k : Fin 128, v (ix2 t k) := by
  refine (Ideal.multiReduction_add_single v _ reduces_S4000x128_S4000 _ _ (ix1 t)).trans ?_
  refine Finset.sum_congr rfl fun k _ => ?_
  -- the row index (t) with k inserted on axis 1 is (t, k), coordinate by coordinate
  exact congrArg v (funext fun a => Fin.ext (by match a with | ⟨0, _⟩ => rfl | ⟨1, _⟩ => rfl))

/-- The sum of a [4000, 1024] array along its first axis, at column c: the sum over the 4000 rows. -/
theorem colsum_apply (v : FVec Ideal S4000x1024 .f32) (c : Fin 1024) :
    multiReduction (F := Ideal) .add [0] S1024 v 0x00000000#32 reduces_S4000x1024_S1024 (.inl rfl) rfl (ix1 c)
      = ∑ t : Fin 4000, v (ix2 t c) := by
  refine (Ideal.multiReduction_add_single v _ reduces_S4000x1024_S1024 _ _ (ix1 c)).trans ?_
  refine Finset.sum_congr rfl fun k _ => ?_
  -- the column index (c) with k inserted on axis 0 is (k, c)
  exact congrArg v (funext fun a => Fin.ext (by match a with | ⟨0, _⟩ => rfl | ⟨1, _⟩ => rfl))

/-! ## One element of the mask as a float -/

/-- Compare two 32-bit words for equality, widen the bit to 32 bits, read it as a signed integer and convert:
    the result is 1 when the words are equal and 0 otherwise (the widened bit is the integer 1 or 0). -/
theorem hot_word (w v : BitVec 32) :
    FloatOps.sitofp (F := Ideal) .f32 ((IntOp.cmpi .eq w v).setWidth 32) = (if w = v then 1 else 0 : EReal) := by
  have hc : IntOp.cmpi .eq w v = BitVec.ofBool (w == v) := rfl
  have e1 : ((BitVec.ofBool true).setWidth 32).toInt = 1 := by decide
  have e0 : ((BitVec.ofBool false).setWidth 32).toInt = 0 := by decide
  rw [hc]
  show ((((BitVec.ofBool (w == v)).setWidth 32).toInt : ℝ) : EReal) = _
  by_cases h : w = v
  · rw [if_pos h, beq_iff_eq.2 h, e1, Int.cast_one, EReal.coe_one]
  · have hb : (w == v) = false := by simpa using h
    rw [if_neg h, hb, e0, Int.cast_zero, EReal.coe_zero]

/-! ## Two blocks side by side -/

/-- Two [4000, 128] arrays laid side by side along the columns, at (t, e): the first at (t, e) when e < 128,
    the second at (t, e - 128) otherwise. -/
theorem concat_apply (A B : FVec Ideal S4000x128 .bf16) (t : Fin 4000) (e : Fin 256) :
    concatenate S4000x256 1 [⟨S4000x128, A⟩, ⟨S4000x128, B⟩] concatenates_S4000x128_S4000x128_S4000x256_d1 (ix2 t e)
      = if h : e.val < 128 then A (ix2 t ⟨e.val, h⟩) else B (ix2 t ⟨e.val - 128, by have := e.isLt; omega⟩) := by
  split
  · next h =>
    exact concatenate_pair_apply_left 1 A B _ (ix2 t e) rfl (ix2 t ⟨e.val, h⟩)
      (fun b => by match b with | ⟨0, _⟩ => rfl | ⟨1, _⟩ => rfl)
  · next h =>
    exact concatenate_pair_apply_right 1 A B _ (ix2 t e) rfl rfl (ix2 t ⟨e.val - 128, by have := e.isLt; omega⟩)
      (fun b hb => by match b with | ⟨0, _⟩ => rfl | ⟨1, _⟩ => exact absurd rfl hb)
      (by show (e.val - 128) + 128 = e.val; omega)

/-! ## The product: entry (c, e) is the sum over the 4000 rows

The product contracts axis 0 of both operands and keeps axis 1 of each: the left operand is read at
(contraction coordinate, c) and the right at (contraction coordinate, e). One lemma per operand axis. -/

/-- Axis 0 of the left operand is the contracted one: it reads the contraction coordinate. -/
theorem lhs_axis0 (i : S1024x256.Idx) (q : dot_S4000x1024_S4000x256_S1024x256_0_0_1_1_n_n.contr.Idx) :
    (dot_S4000x1024_S4000x256_S1024x256_0_0_1_1_n_n.lhsIdx i q 0).val = (q ⟨0, by decide⟩).val :=
  dot_S4000x1024_S4000x256_S1024x256_0_0_1_1_n_n.lhsIdx_val_of_single rfl i q

/-- Axis 1 of the left operand is kept: it reads the result's first coordinate. -/
theorem lhs_axis1 (i : S1024x256.Idx) (q : dot_S4000x1024_S4000x256_S1024x256_0_0_1_1_n_n.contr.Idx) :
    (dot_S4000x1024_S4000x256_S1024x256_0_0_1_1_n_n.lhsIdx i q 1).val = (i 0).val := by
  unfold DotDims.lhsIdx
  rw [dif_neg (show ¬(1 : Fin S4000x1024.rank) ∈ dot_S4000x1024_S4000x256_S1024x256_0_0_1_1_n_n.lhsBatch by decide),
    dif_pos (show (1 : Fin S4000x1024.rank) ∈ dot_S4000x1024_S4000x256_S1024x256_0_0_1_1_n_n.lhsNonContracting by decide)]
  rfl

/-- Axis 0 of the right operand is the contracted one: it reads the contraction coordinate. -/
theorem rhs_axis0 (i : S1024x256.Idx) (q : dot_S4000x1024_S4000x256_S1024x256_0_0_1_1_n_n.contr.Idx) :
    (dot_S4000x1024_S4000x256_S1024x256_0_0_1_1_n_n.rhsIdx i q 0).val = (q ⟨0, by decide⟩).val :=
  dot_S4000x1024_S4000x256_S1024x256_0_0_1_1_n_n.rhsIdx_val_of_single rfl i q

/-- Axis 1 of the right operand is kept: it reads the result's second coordinate. -/
theorem rhs_axis1 (i : S1024x256.Idx) (q : dot_S4000x1024_S4000x256_S1024x256_0_0_1_1_n_n.contr.Idx) :
    (dot_S4000x1024_S4000x256_S1024x256_0_0_1_1_n_n.rhsIdx i q 1).val = (i 1).val := by
  unfold DotDims.rhsIdx
  rw [dif_neg (show ¬(1 : Fin S4000x256.rank) ∈ dot_S4000x1024_S4000x256_S1024x256_0_0_1_1_n_n.rhsBatch by decide),
    dif_pos (show (1 : Fin S4000x256.rank) ∈ dot_S4000x1024_S4000x256_S1024x256_0_0_1_1_n_n.rhsNonContracting by decide)]
  rfl

/-- The product onto the zero accumulator at (c, e): ∑ t, L (t, c) * R (t, e). The sum over the contraction index is
    carried to the sum over t : Fin 4000 by the bijection between a one-axis index and its coordinate. -/
theorem matmul_zero_apply (L : FVec Ideal S4000x1024 .bf16) (R : FVec Ideal S4000x256 .bf16) (c : Fin 1024) (e : Fin 256) :
    matmul (F := Ideal) dot_S4000x1024_S4000x256_S1024x256_0_0_1_1_n_n none L R
        (constant (F := Ideal) S1024x256 .f32 0x00000000#32) (ix2 c e)
      = ∑ t : Fin 4000, L (ix2 t c) * R (ix2 t e) := by
  refine (Ideal.matmul_constant_zero_apply dot_S4000x1024_S4000x256_S1024x256_0_0_1_1_n_n none L R (ix2 c e)).trans ?_
  rw [← Equiv.sum_comp (contrEquiv1 dot_S4000x1024_S4000x256_S1024x256_0_0_1_1_n_n 4000 rfl rfl).symm]
  refine Finset.sum_congr rfl fun k _ => ?_
  have hk := contrEquiv1_symm_val dot_S4000x1024_S4000x256_S1024x256_0_0_1_1_n_n 4000 rfl rfl k
  have el : dot_S4000x1024_S4000x256_S1024x256_0_0_1_1_n_n.lhsIdx (ix2 c e)
      ((contrEquiv1 dot_S4000x1024_S4000x256_S1024x256_0_0_1_1_n_n 4000 rfl rfl).symm k) = ix2 k c :=
    funext fun a => Fin.ext (by
      match a with
      | ⟨0, _⟩ => exact (lhs_axis0 _ _).trans hk
      | ⟨1, _⟩ => exact lhs_axis1 _ _)
  have er : dot_S4000x1024_S4000x256_S1024x256_0_0_1_1_n_n.rhsIdx (ix2 c e)
      ((contrEquiv1 dot_S4000x1024_S4000x256_S1024x256_0_0_1_1_n_n 4000 rfl rfl).symm k) = ix2 k e :=
    funext fun a => Fin.ext (by
      match a with
      | ⟨0, _⟩ => exact (rhs_axis0 _ _).trans hk
      | ⟨1, _⟩ => exact rhs_axis1 _ _)
  rw [el, er]

/-! ## The mask and its conversion -/

/-- The mask at (t, c): the label word of row t compared with the word c. The label column [4000, 1] is broadcast
    along the rows (it reads (t, 0), which is the label block at (0, t, 0)); the class numbers 0 … 1023, a row
    [1, 1024], are broadcast down the columns (it reads (0, c), the word c). -/
theorem mask_apply (l : Vec Ideal S1x4000x1 .i32) (t : Fin 4000) (c : Fin 1024) :
    k0_pay5 (F := Ideal) l (ix2 t c) = IntOp.cmpi .eq (l (ix3 0 t 0)) (BitVec.ofNat 32 c.val) := by
  unfold k0_pay5
  refine congrArg₂ (IntOp.cmpi .eq) ?_ ?_
  · exact (Column.broadcastTo_a1_ab_apply _ _ t c).trans (shapeCast_1ab_ab_apply l _ t 0)
  · exact (broadcastTo_1b_ab_apply _ _ t c).trans (iota_single_apply .tc S1x1024 32 1 _ (ix2 0 c))

/-- The mask widened to 32 bits and converted to a float. -/
def hotMat (l : Vec Ideal S1x4000x1 .i32) : FVec Ideal S4000x1024 .f32 :=
  sitofp .f32 (extui 32 (k0_pay5 (F := Ideal) l) natLt_1_32)

/-- The converted mask at (t, c) is 1 when the label of row t is the class c, else 0. -/
theorem hotMat_apply (l : Vec Ideal S1x4000x1 .i32) (t : Fin 4000) (c : Fin 1024) :
    hotMat l (ix2 t c) = hot (l (ix3 0 t 0)) c := by
  show FloatOps.sitofp (F := Ideal) .f32 ((k0_pay5 (F := Ideal) l (ix2 t c)).setWidth 32) = _
  rw [mask_apply]
  exact hot_word _ _

/-! ## A feature block scaled row by row -/

/-- A feature block with each row scaled by the reciprocal square root of its sum of squares, in the narrower format
    (the same extended reals). -/
def scaled (x : Vec Ideal S1x4000x128 .f32) : FVec Ideal S4000x128 .bf16 :=
  truncf .bf16 (mulf (shapeCast S4000x128 x shapeCasts_S1x4000x128_S4000x128)
    (broadcastTo S4000x128 (rsqrt (shapeCast S4000x1 (multiReduction .add [1] S4000
      (mulf (shapeCast S4000x128 x shapeCasts_S1x4000x128_S4000x128) (shapeCast S4000x128 x shapeCasts_S1x4000x128_S4000x128))
      0x00000000#32 reduces_S4000x128_S4000 (.inl rfl) rfl) shapeCasts_S4000_S4000x1)) broadcasts_S4000x1_S4000x128)) bitsLt_bf16_f32

/-- The scaled block at (t, d): x (0, t, d) times the reciprocal square root of ∑ k, x (0, t, k)². -/
theorem scaled_apply (x : Vec Ideal S1x4000x128 .f32) (t : Fin 4000) (d : Fin 128) :
    scaled x (ix2 t d) = rown x t d := by
  unfold scaled rown
  rw [truncf_apply, mulf_apply, shapeCast_1ab_ab_apply, Column.broadcastTo_a1_ab_apply]
  show x (ix3 0 t d) * Ideal.rsqrt (shapeCast S4000x1 _ shapeCasts_S4000_S4000x1 (ix2 t 0)) = _
  rw [Column.shapeCast_a_a1_apply, rowsum_apply]
  refine congrArg (fun s => x (ix3 0 t d) * Ideal.rsqrt s) (Finset.sum_congr rfl fun k _ => ?_)
  rw [mulf_apply, shapeCast_1ab_ab_apply]

/-! ## The computed values -/

/-- The new [1024, 256] array of sums, with its two large operands named: the old block plus the product of the
    converted mask with the two scaled blocks side by side. Both sides unfold to the same term. -/
theorem k0_pay7_eq (x0 x1 : Vec Ideal S1x4000x128 .f32) (x2 : Vec Ideal S1x4000x1 .i32) (xo : Vec Ideal S1x1024x256 .f32) :
    k0_pay7 (F := Ideal) x0 x1 x2 xo
      = addf (shapeCast S1024x256 xo shapeCasts_S1x1024x256_S1024x256)
          (matmul dot_S4000x1024_S4000x256_S1024x256_0_0_1_1_n_n none (truncf .bf16 (hotMat x2) bitsLt_bf16_f32)
            (concatenate S4000x256 1 [⟨S4000x128, scaled x0⟩, ⟨S4000x128, scaled x1⟩] concatenates_S4000x128_S4000x128_S4000x256_d1)
            (constant S1024x256 .f32 0x00000000#32)) := rfl

/-- The new block of sums at (class c, column e): what the block held there plus the point's contribution. -/
theorem sums_payload_apply (x0 x1 : Vec Ideal S1x4000x128 .f32) (x2 : Vec Ideal S1x4000x1 .i32) (xo : Vec Ideal S1x1024x256 .f32)
    (c : Fin 1024) (e : Fin 256) :
    k0_pay1 (F := Ideal) (k0_pay7 (F := Ideal) x0 x1 x2 xo) (ix3 0 c e) = xo (ix3 0 c e) + contrib x0 x1 x2 c e := by
  unfold k0_pay1 contrib
  refine (shapeCast_ab_1ab_apply _ _ (0 : Fin 1) c e).trans ?_
  rw [k0_pay7_eq, addf_apply, shapeCast_1ab_ab_apply, matmul_zero_apply]
  refine congrArg (xo (ix3 0 c e) + ·) (Finset.sum_congr rfl fun t _ => ?_)
  -- one term of the sum: the mask's entry times the entry of the two scaled blocks side by side
  rw [truncf_apply, hotMat_apply, concat_apply]
  unfold cat
  congr 1
  split
  · rw [scaled_apply]
  · rw [scaled_apply]

/-- The point's tally at class c: the column sum of the converted mask, kept as a [1, 1024] row. -/
theorem count_apply (l : Vec Ideal S1x4000x1 .i32) (c : Fin 1024) :
    k0_pay6 (F := Ideal) l (ix2 0 c) = tally l c := by
  unfold k0_pay6 tally
  refine (shapeCast_a_1a_apply _ _ (0 : Fin 1) c).trans ?_
  refine (colsum_apply _ c).trans ?_
  exact Finset.sum_congr rfl fun t _ => hotMat_apply l t c

/-- The new block of counts at class c: what the block held there plus the point's tally. -/
theorem counts_payload_apply (x2 : Vec Ideal S1x4000x1 .i32) (xo : Vec Ideal S1x1x1024 .f32) (c : Fin 1024) :
    k0_pay2 (F := Ideal) (k0_pay6 (F := Ideal) x2) xo (ix3 0 0 c) = xo (ix3 0 0 c) + tally x2 c := by
  unfold k0_pay2
  refine (shapeCast_ab_1ab_apply _ _ (0 : Fin 1) (0 : Fin 1) c).trans ?_
  rw [addf_apply, shapeCast_1ab_ab_apply, count_apply]

/-- The zero block of sums and the zero block of counts. -/
theorem zero_sums_apply (i : S1x1024x256.Idx) : k0_pay3 (F := Ideal) i = (0 : EReal) := by
  obtain ⟨u, a, b, rfl⟩ : ∃ u a b, i = ix3 u a b := ⟨_, _, _, eq_ix3 i⟩
  unfold k0_pay3
  refine (shapeCast_ab_1ab_apply _ _ u a b).trans ?_
  -- a splat of the zero word, which denotes 0
  exact Ideal.ofBits_zero_f32

theorem zero_counts_apply (i : S1x1x1024.Idx) : k0_pay4 (F := Ideal) i = (0 : EReal) := by
  obtain ⟨u, a, b, rfl⟩ : ∃ u a b, i = ix3 u a b := ⟨_, _, _, eq_ix3 i⟩
  unfold k0_pay4
  refine (shapeCast_ab_1ab_apply _ _ u a b).trans ?_
  exact Ideal.ofBits_zero_f32

end Cert.KernelIdeal.PayloadValue

end
-- ==== Proof.Running.lean ====
/-
  The two output blocks after each grid point, read at an index.

  The 250 points are two halves of 125. At the first point of a half both blocks are reset to zero before the point's
  contribution is added; at every later point the contribution is added to what the point before left. So after point n the
  block of sums holds, at class c and column e, the sum of the contributions of the points of n's half up to n, and the block of
  counts the sum of their tallies.
-/
import proofs.«400432_j91276644974681_3_alg».proof.Proof.PointValue
import proofs.«400432_j91276644974681_3_alg».proof.Proof.PayloadValue
import proofs.«400432_j91276644974681_3_alg».proof.Proof.BlockSpec

noncomputable section

namespace Cert.KernelIdeal.Running

open Idealize.ShloMosaic Idealize.ShloMosaic.TcCoe Idealize.ShloMosaic.ValueIdx Idealize.SL.Sem
open Cert.KernelIdeal Cert.KernelIdeal.Gen Cert.BlockSpec

variable (m : (ℓ : Loc nD τ sig) → Buf (Elt Ideal) ℓ)

/-- The three input blocks of point t, at their literal types. -/
abbrev blk0 (c : Dev nD) (t : Fin cfg0.N) : Vec Ideal S1x4000x128 .f32 := iblk m c 0 t
abbrev blk1 (c : Dev nD) (t : Fin cfg0.N) : Vec Ideal S1x4000x128 .f32 := iblk m c 1 t
abbrev blkL (c : Dev nD) (t : Fin cfg0.N) : Vec Ideal S1x4000x1 .i32 := iblk m c 2 t

/-- Point n's contribution to the block of sums and to the block of counts (zero past the grid). -/
def contribAt (c : Dev nD) (n : ℕ) (cl : Fin 1024) (e : Fin 256) : EReal :=
  if h : n < cfg0.N then contrib (blk0 m c ⟨n, h⟩) (blk1 m c ⟨n, h⟩) (blkL m c ⟨n, h⟩) cl e else 0
def tallyAt (c : Dev nD) (n : ℕ) (cl : Fin 1024) : EReal :=
  if h : n < cfg0.N then tally (blkL m c ⟨n, h⟩) cl else 0

theorem contribAt_of_lt (c : Dev nD) (n : ℕ) (h : n < cfg0.N) (cl : Fin 1024) (e : Fin 256) :
    contribAt m c n cl e = contrib (blk0 m c ⟨n, h⟩) (blk1 m c ⟨n, h⟩) (blkL m c ⟨n, h⟩) cl e := dif_pos h
theorem tallyAt_of_lt (c : Dev nD) (n : ℕ) (h : n < cfg0.N) (cl : Fin 1024) :
    tallyAt m c n cl = tally (blkL m c ⟨n, h⟩) cl := dif_pos h

/-- At the first point of a half the block of sums holds the point's contribution. -/
theorem sums_at_first (c : Dev nD) (t : Fin cfg0.N) (h0 : t.val % 125 = 0) (cl : Fin 1024) (e : Fin 256) :
    (outsAt0 m c t.val t.isLt).1 (ix3 0 cl e) = contrib (blk0 m c t) (blk1 m c t) (blkL m c t) cl e := by
  rw [outsAt0_A m c t h0]
  dsimp only
  rw [PointValue.sums_first (F := Ideal) c (grid0.coords t) (ms0_0 t) (hs0_0 t) (ms0_1 t) (hs0_1 t) (ms0_2 t) (hs0_2 t) (ms0_3 t) (hs0_3 t)
    (ms0_4 t) (hs0_4 t) ((hcond0_0 t).mpr h0) (iblk m c 0 t) (iblk m c 1 t) (iblk m c 2 t)]
  rw [PayloadValue.sums_payload_apply, PayloadValue.zero_sums_apply, zero_add]

/-- At a later point it holds what the point before left plus the point's contribution. -/
theorem sums_at_later (c : Dev nD) (t : Fin cfg0.N) (h0 : ¬t.val % 125 = 0) (cl : Fin 1024) (e : Fin 256) :
    (outsAt0 m c t.val t.isLt).1 (ix3 0 cl e)
      = (outsAt0 m c (t.val - 1) (Nat.lt_of_le_of_lt (Nat.sub_le _ _) t.isLt)).1 (ix3 0 cl e)
        + contrib (blk0 m c t) (blk1 m c t) (blkL m c t) cl e := by
  rw [outsAt0_B m c t h0]
  dsimp only
  rw [PointValue.sums_later (F := Ideal) c (grid0.coords t) (ms0_0 t) (hs0_0 t) (ms0_1 t) (hs0_1 t) (ms0_2 t) (hs0_2 t) (ms0_3 t) (hs0_3 t)
    (ms0_4 t) (hs0_4 t) (fun h => h0 ((hcond0_0 t).mp h)) (iblk m c 0 t) (iblk m c 1 t) (iblk m c 2 t)
    (outsAt0 m c (t.val - 1) (Nat.lt_of_le_of_lt (Nat.sub_le _ _) t.isLt)).1 (outsAt0 m c (t.val - 1) (Nat.lt_of_le_of_lt (Nat.sub_le _ _) t.isLt)).2]
  rw [PayloadValue.sums_payload_apply]

/-- The same two steps for the block of counts. -/
theorem counts_at_first (c : Dev nD) (t : Fin cfg0.N) (h0 : t.val % 125 = 0) (cl : Fin 1024) :
    (outsAt0 m c t.val t.isLt).2 (ix3 0 0 cl) = tally (blkL m c t) cl := by
  rw [outsAt0_A m c t h0]
  dsimp only
  rw [PointValue.counts_first (F := Ideal) c (grid0.coords t) (ms0_0 t) (hs0_0 t) (ms0_1 t) (hs0_1 t) (ms0_2 t) (hs0_2 t) (ms0_3 t) (hs0_3 t)
    (ms0_4 t) (hs0_4 t) ((hcond0_0 t).mpr h0) (iblk m c 0 t) (iblk m c 1 t) (iblk m c 2 t)]
  rw [PayloadValue.counts_payload_apply, PayloadValue.zero_counts_apply, zero_add]

theorem counts_at_later (c : Dev nD) (t : Fin cfg0.N) (h0 : ¬t.val % 125 = 0) (cl : Fin 1024) :
    (outsAt0 m c t.val t.isLt).2 (ix3 0 0 cl)
      = (outsAt0 m c (t.val - 1) (Nat.lt_of_le_of_lt (Nat.sub_le _ _) t.isLt)).2 (ix3 0 0 cl) + tally (blkL m c t) cl := by
  rw [outsAt0_B m c t h0]
  dsimp only
  rw [PointValue.counts_later (F := Ideal) c (grid0.coords t) (ms0_0 t) (hs0_0 t) (ms0_1 t) (hs0_1 t) (ms0_2 t) (hs0_2 t) (ms0_3 t) (hs0_3 t)
    (ms0_4 t) (hs0_4 t) (fun h => h0 ((hcond0_0 t).mp h)) (iblk m c 0 t) (iblk m c 1 t) (iblk m c 2 t)
    (outsAt0 m c (t.val - 1) (Nat.lt_of_le_of_lt (Nat.sub_le _ _) t.isLt)).1 (outsAt0 m c (t.val - 1) (Nat.lt_of_le_of_lt (Nat.sub_le _ _) t.isLt)).2]
  rw [PayloadValue.counts_payload_apply]

/-- After point n the block of sums holds the contributions of n's half up to n. -/
theorem sums_running (c : Dev nD) (cl : Fin 1024) (e : Fin 256) : ∀ (n : ℕ) (hn : n < cfg0.N),
    (outsAt0 m c n hn).1 (ix3 0 cl e) = ∑ k ∈ Finset.range (n % 125 + 1), contribAt m c (n - n % 125 + k) cl e := by
  intro n
  induction n with
  | zero =>
    intro hn
    rw [sums_at_first m c ⟨0, hn⟩ rfl cl e]
    simp only [Nat.zero_mod, Nat.sub_zero, Nat.zero_add, Finset.sum_range_one, Nat.add_zero]
    exact (contribAt_of_lt m c 0 hn cl e).symm
  | succ n ih =>
    intro hn
    by_cases h0 : (n + 1) % 125 = 0
    · rw [sums_at_first m c ⟨n + 1, hn⟩ h0 cl e, h0]
      simp only [Nat.sub_zero, Nat.zero_add, Finset.sum_range_one, Nat.add_zero]
      exact (contribAt_of_lt m c (n + 1) hn cl e).symm
    · rw [sums_at_later m c ⟨n + 1, hn⟩ h0 cl e]
      show (outsAt0 m c n (Nat.lt_of_succ_lt hn)).1 (ix3 0 cl e) + _ = _
      rw [ih (Nat.lt_of_succ_lt hn)]
      have hb : (n + 1) % 125 = n % 125 + 1 := by omega
      have hbase : n + 1 - (n % 125 + 1) = n - n % 125 := by omega
      have hlast : n - n % 125 + (n % 125 + 1) = n + 1 := by omega
      rw [hb, hbase, Finset.sum_range_succ (n := n % 125 + 1), hlast, contribAt_of_lt m c (n + 1) hn cl e]

/-- After point n the block of counts holds the tallies of n's half up to n. -/
theorem counts_running (c : Dev nD) (cl : Fin 1024) : ∀ (n : ℕ) (hn : n < cfg0.N),
    (outsAt0 m c n hn).2 (ix3 0 0 cl) = ∑ k ∈ Finset.range (n % 125 + 1), tallyAt m c (n - n % 125 + k) cl := by
  intro n
  induction n with
  | zero =>
    intro hn
    rw [counts_at_first m c ⟨0, hn⟩ rfl cl]
    simp only [Nat.zero_mod, Nat.sub_zero, Nat.zero_add, Finset.sum_range_one, Nat.add_zero]
    exact (tallyAt_of_lt m c 0 hn cl).symm
  | succ n ih =>
    intro hn
    by_cases h0 : (n + 1) % 125 = 0
    · rw [counts_at_first m c ⟨n + 1, hn⟩ h0 cl, h0]
      simp only [Nat.sub_zero, Nat.zero_add, Finset.sum_range_one, Nat.add_zero]
      exact (tallyAt_of_lt m c (n + 1) hn cl).symm
    · rw [counts_at_later m c ⟨n + 1, hn⟩ h0 cl]
      show (outsAt0 m c n (Nat.lt_of_succ_lt hn)).2 (ix3 0 0 cl) + _ = _
      rw [ih (Nat.lt_of_succ_lt hn)]
      have hb : (n + 1) % 125 = n % 125 + 1 := by omega
      have hbase : n + 1 - (n % 125 + 1) = n - n % 125 := by omega
      have hlast : n - n % 125 + (n % 125 + 1) = n + 1 := by omega
      rw [hb, hbase, Finset.sum_range_succ (n := n % 125 + 1), hlast, tallyAt_of_lt m c (n + 1) hn cl]

end Cert.KernelIdeal.Running

end
-- ==== Proof.Arrays.lean ====
/-
  The region's two output arrays after the run.

  Each half of the grid writes its output blocks back once, after its last point. So half h's block of the array of sums is
  the sum of the contributions of the half's 125 points, and its block of the array of counts the sum of their tallies; the
  two halves' blocks are the whole arrays.
-/
import proofs.«400432_j91276644974681_3_alg».proof.Proof.Running
import Idealize.ShloMosaic.Lib.Pipeline.Value

noncomputable section

namespace Cert.KernelIdeal.Arrays

open Idealize.ShloMosaic Idealize.ShloMosaic.TcCoe Idealize.ShloMosaic.ValueIdx Idealize.SL.Sem
open Cert.KernelIdeal Cert.KernelIdeal.Gen Cert.BlockSpec Cert.KernelIdeal.Running
open Idealize.ShloMosaic.Pipeline (Dat)

variable (m : (ℓ : Loc nD τ sig) → Buf (Elt Ideal) ℓ)

/-- The array of per-half sums: half h's entry is the sum of the contributions of the 125 points of the half. -/
def sumsArr (c : Dev nD) : FVec Ideal S2x1024x256 .f32 := fun i =>
  ∑ k ∈ Finset.range 125, contribAt m c (125 * (i 0).val + k) ⟨(i 1).val, (i 1).isLt⟩ ⟨(i 2).val, (i 2).isLt⟩

/-- The array of per-half counts, likewise from the tallies. -/
def countsArr (c : Dev nD) : FVec Ideal S2x1x1024 .f32 := fun i =>
  ∑ k ∈ Finset.range 125, tallyAt m c (125 * (i 0).val + k) ⟨(i 2).val, (i 2).isLt⟩

theorem contribAt_congr (c : Dev nD) {n n' : ℕ} {cl cl' : Fin 1024} {e e' : Fin 256} (hn : n = n') (hc : cl.val = cl'.val)
    (he : e.val = e'.val) : contribAt m c n cl e = contribAt m c n' cl' e' := by
  obtain rfl := hn; obtain rfl := Fin.ext hc; obtain rfl := Fin.ext he; rfl

theorem tallyAt_congr (c : Dev nD) {n n' : ℕ} {cl cl' : Fin 1024} (hn : n = n') (hc : cl.val = cl'.val) :
    tallyAt m c n cl = tallyAt m c n' cl' := by
  obtain rfl := hn; obtain rfl := Fin.ext hc; rfl

/-- The output windows' block index at point t is (t / 125, 0, 0): decided over the grid. -/
theorem idx_out : ∀ t : Fin cfg0.N, win0_3.index t (0 : Fin 3) = t.val / 125 ∧ win0_3.index t (1 : Fin 3) = 0 ∧ win0_3.index t (2 : Fin 3) = 0
    ∧ win0_4.index t (0 : Fin 3) = t.val / 125 ∧ win0_4.index t (1 : Fin 3) = 0 ∧ win0_4.index t (2 : Fin 3) = 0 :=
  (by decide +kernel : ∀ t : Fin grid0.N, _)

/-- What the last point of a half writes back is that half's block of the array of sums. -/
theorem flushed_sums (c : Dev nD) (t : Fin cfg0.N) (hf : (cfg0.win 3).flush t = true) :
    (dats m 0 c).flushed 3 t = ((cfg0.win 3).blk t).view.read (Elt Ideal) (sumsArr m c) := by
  have h124 : t.val % 125 = 124 := (flush0_3 t).mp hf
  obtain ⟨e0, e1, e2, -, -, -⟩ := idx_out t
  show (cfg0.win 3).cut (grid0.coords t) ((dats m 0 c).after 3 t) = _
  rw [after0_3]
  funext y
  rw [View.read_apply]
  show (outsAt0 m c t.val t.isLt).1 y = sumsArr m c (((cfg0.win 3).blk t).view.emb y)
  have hy0 : (y 0).val = 0 := by have : (y 0).val < 1 := (y 0).isLt; omega
  have hy : (y : S1x1024x256.Idx) = ix3 0 ⟨(y 1).val, (y 1).isLt⟩ ⟨(y 2).val, (y 2).isLt⟩ := by
    funext a; apply Fin.ext
    match a with
    | ⟨0, _⟩ => exact hy0
    | ⟨1, _⟩ => rfl
    | ⟨2, _⟩ => rfl
  have hemb0 : ((((cfg0.win 3).blk t).view.emb y) 0).val = t.val / 125 := by
    show win0_3.index t (0 : Fin 3) * 1 + 1 * (y 0).val = _; omega
  have hemb1 : ((((cfg0.win 3).blk t).view.emb y) 1).val = (y 1).val := by
    show win0_3.index t (1 : Fin 3) * 1024 + 1 * (y 1).val = _; omega
  have hemb2 : ((((cfg0.win 3).blk t).view.emb y) 2).val = (y 2).val := by
    show win0_3.index t (2 : Fin 3) * 256 + 1 * (y 2).val = _; omega
  have hrun := sums_running m c ⟨(y 1).val, (y 1).isLt⟩ ⟨(y 2).val, (y 2).isLt⟩ t.val t.isLt
  refine ((congrArg (fun z : S1x1024x256.Idx => (outsAt0 m c t.val t.isLt).1 z) hy).trans hrun).trans ?_
  rw [h124]
  unfold sumsArr
  refine Finset.sum_congr rfl fun k _ => ?_
  exact contribAt_congr m c (by rw [hemb0]; omega) hemb1.symm hemb2.symm

/-- Every entry of the array of sums is in the block some half's last point writes back. -/
theorem cover_sums (i : S2x1024x256.Idx) :
    ∃ t : Fin cfg0.N, (cfg0.win 3).flush t = true ∧ i ∈ ((cfg0.win 3).blk t).view.set := by
  have hi0 : (i 0).val < 2 := (i 0).isLt
  have h1 : (i 1).val < 1024 := (i 1).isLt
  have h2 : (i 2).val < 256 := (i 2).isLt
  have hN : cfg0.N = 250 := N_0
  have ht : 125 * (i 0).val + 124 < cfg0.N := by rw [hN]; omega
  obtain ⟨e0, e1, e2, -, -, -⟩ := idx_out ⟨125 * (i 0).val + 124, ht⟩
  have e0' : win0_3.index ⟨125 * (i 0).val + 124, ht⟩ (0 : Fin 3) = (i 0).val := by
    rw [e0]; show (125 * (i 0).val + 124) / 125 = _; omega
  refine ⟨⟨125 * (i 0).val + 124, ht⟩, (flush0_3 _).mpr (by show (125 * (i 0).val + 124) % 125 = 124; omega), ?_⟩
  show i ∈ ((View.whole main_v3_0).slice (win0_3.rect ⟨125 * (i 0).val + 124, ht⟩)).set
  rw [View.set_slice_whole, Rect.mem_set_unit]
  intro a
  match a with
  | ⟨0, _⟩ =>
    show win0_3.index ⟨125 * (i 0).val + 124, ht⟩ (0 : Fin 3) * 1 ≤ (i 0).val ∧ (i 0).val < win0_3.index ⟨125 * (i 0).val + 124, ht⟩ (0 : Fin 3) * 1 + 1
    omega
  | ⟨1, _⟩ =>
    show win0_3.index ⟨125 * (i 0).val + 124, ht⟩ (1 : Fin 3) * 1024 ≤ (i 1).val ∧ (i 1).val < win0_3.index ⟨125 * (i 0).val + 124, ht⟩ (1 : Fin 3) * 1024 + 1024
    omega
  | ⟨2, _⟩ =>
    show win0_3.index ⟨125 * (i 0).val + 124, ht⟩ (2 : Fin 3) * 256 ≤ (i 2).val ∧ (i 2).val < win0_3.index ⟨125 * (i 0).val + 124, ht⟩ (2 : Fin 3) * 256 + 256
    omega

/-- After the run the first output array is the array of per-half sums. -/
theorem final_sums (c : Dev nD) : (dats m 0 c).arrAt 3 cfg0.N = sumsArr m c :=
  (dats m 0 c).arrAt_eq_of_cover 3 (sumsArr m c) (flushed_sums m c) cover_sums

/-- What the last point of a half writes back is that half's block of the array of counts. -/
theorem flushed_counts (c : Dev nD) (t : Fin cfg0.N) (hf : (cfg0.win 4).flush t = true) :
    (dats m 0 c).flushed 4 t = ((cfg0.win 4).blk t).view.read (Elt Ideal) (countsArr m c) := by
  have h124 : t.val % 125 = 124 := (flush0_4 t).mp hf
  obtain ⟨-, -, -, e0, e1, e2⟩ := idx_out t
  show (cfg0.win 4).cut (grid0.coords t) ((dats m 0 c).after 4 t) = _
  rw [after0_4]
  funext y
  rw [View.read_apply]
  show (outsAt0 m c t.val t.isLt).2 y = countsArr m c (((cfg0.win 4).blk t).view.emb y)
  have hy0 : (y 0).val = 0 := by have : (y 0).val < 1 := (y 0).isLt; omega
  have hy1 : (y 1).val = 0 := by have : (y 1).val < 1 := (y 1).isLt; omega
  have hy : (y : S1x1x1024.Idx) = ix3 0 0 ⟨(y 2).val, (y 2).isLt⟩ := by
    funext a; apply Fin.ext
    match a with
    | ⟨0, _⟩ => exact hy0
    | ⟨1, _⟩ => exact hy1
    | ⟨2, _⟩ => rfl
  have hemb0 : ((((cfg0.win 4).blk t).view.emb y) 0).val = t.val / 125 := by
    show win0_4.index t (0 : Fin 3) * 1 + 1 * (y 0).val = _; omega
  have hemb2 : ((((cfg0.win 4).blk t).view.emb y) 2).val = (y 2).val := by
    show win0_4.index t (2 : Fin 3) * 1024 + 1 * (y 2).val = _; omega
  have hrun := counts_running m c ⟨(y 2).val, (y 2).isLt⟩ t.val t.isLt
  refine ((congrArg (fun z : S1x1x1024.Idx => (outsAt0 m c t.val t.isLt).2 z) hy).trans hrun).trans ?_
  rw [h124]
  unfold countsArr
  refine Finset.sum_congr rfl fun k _ => ?_
  exact tallyAt_congr m c (by rw [hemb0]; omega) hemb2.symm

/-- Every entry of the array of counts is in the block some half's last point writes back. -/
theorem cover_counts (i : S2x1x1024.Idx) :
    ∃ t : Fin cfg0.N, (cfg0.win 4).flush t = true ∧ i ∈ ((cfg0.win 4).blk t).view.set := by
  have hi0 : (i 0).val < 2 := (i 0).isLt
  have h1 : (i 1).val < 1 := (i 1).isLt
  have h2 : (i 2).val < 1024 := (i 2).isLt
  have hN : cfg0.N = 250 := N_0
  have ht : 125 * (i 0).val + 124 < cfg0.N := by rw [hN]; omega
  obtain ⟨-, -, -, e0, e1, e2⟩ := idx_out ⟨125 * (i 0).val + 124, ht⟩
  have e0' : win0_4.index ⟨125 * (i 0).val + 124, ht⟩ (0 : Fin 3) = (i 0).val := by
    rw [e0]; show (125 * (i 0).val + 124) / 125 = _; omega
  refine ⟨⟨125 * (i 0).val + 124, ht⟩, (flush0_4 _).mpr (by show (125 * (i 0).val + 124) % 125 = 124; omega), ?_⟩
  show i ∈ ((View.whole main_v3_1).slice (win0_4.rect ⟨125 * (i 0).val + 124, ht⟩)).set
  rw [View.set_slice_whole, Rect.mem_set_unit]
  intro a
  match a with
  | ⟨0, _⟩ =>
    show win0_4.index ⟨125 * (i 0).val + 124, ht⟩ (0 : Fin 3) * 1 ≤ (i 0).val ∧ (i 0).val < win0_4.index ⟨125 * (i 0).val + 124, ht⟩ (0 : Fin 3) * 1 + 1
    omega
  | ⟨1, _⟩ =>
    show win0_4.index ⟨125 * (i 0).val + 124, ht⟩ (1 : Fin 3) * 1 ≤ (i 1).val ∧ (i 1).val < win0_4.index ⟨125 * (i 0).val + 124, ht⟩ (1 : Fin 3) * 1 + 1
    omega
  | ⟨2, _⟩ =>
    show win0_4.index ⟨125 * (i 0).val + 124, ht⟩ (2 : Fin 3) * 1024 ≤ (i 2).val ∧ (i 2).val < win0_4.index ⟨125 * (i 0).val + 124, ht⟩ (2 : Fin 3) * 1024 + 1024
    omega

/-- After the run the second output array is the array of per-half counts. -/
theorem final_counts (c : Dev nD) : (dats m 0 c).arrAt 4 cfg0.N = countsArr m c :=
  (dats m 0 c).arrAt_eq_of_cover 4 (countsArr m c) (flushed_counts m c) cover_counts

end Cert.KernelIdeal.Arrays

end
-- ==== Proof.InputBlocks.lean ====
import proofs.«400432_j91276644974681_3_alg».proof.Proof.Gen.KernelIdeal.Frame
import Idealize.ShloMosaic.Lib.Pipeline.Value
import Idealize.ShloMosaic.Lib.StableHlo.Run
import Idealize.ShloMosaic.Lib.ValueIdx

/-!
# The kernel's three input blocks, read at an index

The program reshapes its two feature arrays (1000000 x 128) to (2, 500000, 128) and its label array (1000000) to
(2, 500000, 1) before the region; the region's grid is 2 x 125, point n = 125 * h + j, and at point n each of the three
input windows holds block (h, j, 0) of its reshaped array: 4000 consecutive rows of half h. A reshape keeps the
row-major position, so row r of point n's block is row 500000 * h + 4000 * j + r of the argument array. This module
states exactly that, entry by entry.
-/

noncomputable section

namespace Cert.KernelIdeal.InputBlocks

open Cert.KernelIdeal Cert.KernelIdeal.Gen Idealize.ShloMosaic Idealize.ShloMosaic.TcCoe Idealize.ShloMosaic.ValueIdx Idealize.SL.Sem

variable {F : FTy → Type} [FloatOps F]
variable (m : (ℓ : Loc nD τ sig) → Buf (Elt F) ℓ)

/-- The row of the argument arrays that row r of point n's blocks is: half n / 125, block n % 125 of 4000 rows. -/
def rowOf (n r : ℕ) : ℕ := 500000 * (n / 125) + 4000 * (n % 125) + r

/-- It is a row of the argument arrays: 500000 * 1 + 4000 * 124 + 3999 = 999999. -/
theorem rowOf_lt (n r : ℕ) (hn : n < 250) (hr : r < 4000) : rowOf n r < 1000000 := by
  unfold rowOf; omega

/-! ## The index maps over the grid -/

/-- Each input window's block index at point t is (t / 125, t % 125, 0): the two grid coordinates and a constant zero,
    decided over the 250 points. -/
theorem blockIndex : ∀ t : Fin cfg0.N,
    win0_0.index t (0 : Fin 3) = t.val / 125 ∧ win0_0.index t (1 : Fin 3) = t.val % 125 ∧ win0_0.index t (2 : Fin 3) = 0
    ∧ win0_1.index t (0 : Fin 3) = t.val / 125 ∧ win0_1.index t (1 : Fin 3) = t.val % 125 ∧ win0_1.index t (2 : Fin 3) = 0
    ∧ win0_2.index t (0 : Fin 3) = t.val / 125 ∧ win0_2.index t (1 : Fin 3) = t.val % 125 ∧ win0_2.index t (2 : Fin 3) = 0 :=
  (by decide +kernel : ∀ t : Fin grid0.N, _)

/-! ## The reshapes read at an index -/

/-- (h, q, d) of the (2, 500000, 128) reshape of a (1000000, 128) array is its entry (500000 h + q, d): both sit at
    row-major position (500000 h + q) * 128 + d. -/
theorem reshape_feat {α : Type} (x : S1000000x128.Idx → α) (h : Fin 2) (q : Fin 500000) (d : Fin 128) (k : Fin 1000000)
    (hk : k.val = 500000 * h.val + q.val) :
    shapeCast S2x500000x128 x shapeCasts_S1000000x128_S2x500000x128 (ix3 h q d) = x (ix2 k d) := by
  refine shapeCast_apply x _ _ _ ?_
  rw [Shape.rowMajor_val_two, Shape.rowMajor_val_three]
  show k.val * 128 + d.val = (h.val * 500000 + q.val) * 128 + d.val
  omega

/-- (h, q, 0) of the (2, 500000, 1) reshape of a (1000000) array is its entry 500000 h + q. -/
theorem reshape_label {α : Type} (x : S1000000.Idx → α) (h : Fin 2) (q : Fin 500000) (k : Fin 1000000)
    (hk : k.val = 500000 * h.val + q.val) :
    shapeCast S2x500000x1 x shapeCasts_S1000000_S2x500000x1 (ix3 h q 0) = x (ix1 k) := by
  refine shapeCast_apply x _ _ _ ?_
  rw [Shape.rowMajor_val_one, Shape.rowMajor_val_three]
  show k.val = (h.val * 500000 + q.val) * 1 + 0
  omega

/-! ## The arrays the region finds are the reshapes of the arguments -/

theorem V_main_v0 (c : Dev nD) : (V m c main_v0 : S2x500000x128.Idx → Elt F .f32)
    = shapeCast S2x500000x128 (m ((c : Thread nD τ).loc main_arg0)) shapeCasts_S1000000x128_S2x500000x128 := by
  show StableHlo.after hostOps0 (fun b => m (c, b)) (Proc.devRef .tc main_v0) = _
  after_results; rfl

theorem V_main_v1 (c : Dev nD) : (V m c main_v1 : S2x500000x128.Idx → Elt F .f32)
    = shapeCast S2x500000x128 (m ((c : Thread nD τ).loc main_arg1)) shapeCasts_S1000000x128_S2x500000x128 := by
  show StableHlo.after hostOps0 (fun b => m (c, b)) (Proc.devRef .tc main_v1) = _
  after_results; rfl

theorem V_main_v2 (c : Dev nD) : (V m c main_v2 : S2x500000x1.Idx → Elt F .i32)
    = shapeCast S2x500000x1 (m ((c : Thread nD τ).loc main_arg2)) shapeCasts_S1000000_S2x500000x1 := by
  show StableHlo.after hostOps0 (fun b => m (c, b)) (Proc.devRef .tc main_v2) = _
  after_results; rfl

/-! ## The blocks -/

/-- Row r, column d of point t's first feature block is row rowOf t r, column d of the first argument. -/
theorem feat1_apply (c : Dev nD) (t : Fin cfg0.N) (r : Fin 4000) (d : Fin 128) (h : rowOf t.val r.val < 1000000) :
    (iblk m c 0 t : Vec F S1x4000x128 .f32) (ix3 0 r d) = m ((c : Thread nD τ).loc main_arg0) (ix2 ⟨rowOf t.val r.val, h⟩ d) := by
  obtain ⟨e0, e1, e2, -⟩ := blockIndex t
  have ht : t.val < 250 := lt_of_lt_of_eq t.isLt N_0
  have hr : r.val < 4000 := r.isLt
  -- a block's coordinate on an axis is its block index times the block's extent plus the coordinate inside the block
  have hemb : ((cfg0.win 0).blk t).view.emb (ix3 0 r d)
      = (ix3 ⟨t.val / 125, by omega⟩ ⟨4000 * (t.val % 125) + r.val, by omega⟩ d : S2x500000x128.Idx) := by
    funext a; apply Fin.ext
    match a with
    | ⟨0, _⟩ => show win0_0.index t (0 : Fin 3) * 1 + 1 * 0 = t.val / 125; omega
    | ⟨1, _⟩ => show win0_0.index t (1 : Fin 3) * 4000 + 1 * r.val = 4000 * (t.val % 125) + r.val; omega
    | ⟨2, _⟩ => show win0_0.index t (2 : Fin 3) * 128 + 1 * d.val = d.val; omega
  show V m c main_v0 (((cfg0.win 0).blk t).view.emb (ix3 0 r d)) = _
  rw [hemb, V_main_v0]
  exact reshape_feat _ _ _ _ ⟨rowOf t.val r.val, h⟩
    (by show rowOf t.val r.val = 500000 * (t.val / 125) + (4000 * (t.val % 125) + r.val); unfold rowOf; omega)

/-- Row r, column d of point t's second feature block is row rowOf t r, column d of the second argument. -/
theorem feat2_apply (c : Dev nD) (t : Fin cfg0.N) (r : Fin 4000) (d : Fin 128) (h : rowOf t.val r.val < 1000000) :
    (iblk m c 1 t : Vec F S1x4000x128 .f32) (ix3 0 r d) = m ((c : Thread nD τ).loc main_arg1) (ix2 ⟨rowOf t.val r.val, h⟩ d) := by
  obtain ⟨-, -, -, e0, e1, e2, -⟩ := blockIndex t
  have ht : t.val < 250 := lt_of_lt_of_eq t.isLt N_0
  have hr : r.val < 4000 := r.isLt
  have hemb : ((cfg0.win 1).blk t).view.emb (ix3 0 r d)
      = (ix3 ⟨t.val / 125, by omega⟩ ⟨4000 * (t.val % 125) + r.val, by omega⟩ d : S2x500000x128.Idx) := by
    funext a; apply Fin.ext
    match a with
    | ⟨0, _⟩ => show win0_1.index t (0 : Fin 3) * 1 + 1 * 0 = t.val / 125; omega
    | ⟨1, _⟩ => show win0_1.index t (1 : Fin 3) * 4000 + 1 * r.val = 4000 * (t.val % 125) + r.val; omega
    | ⟨2, _⟩ => show win0_1.index t (2 : Fin 3) * 128 + 1 * d.val = d.val; omega
  show V m c main_v1 (((cfg0.win 1).blk t).view.emb (ix3 0 r d)) = _
  rw [hemb, V_main_v1]
  exact reshape_feat _ _ _ _ ⟨rowOf t.val r.val, h⟩
    (by show rowOf t.val r.val = 500000 * (t.val / 125) + (4000 * (t.val % 125) + r.val); unfold rowOf; omega)

/-- Row r of point t's label block is entry rowOf t r of the label argument. -/
theorem label_apply (c : Dev nD) (t : Fin cfg0.N) (r : Fin 4000) (h : rowOf t.val r.val < 1000000) :
    (iblk m c 2 t : Vec F S1x4000x1 .i32) (ix3 0 r 0) = m ((c : Thread nD τ).loc main_arg2) (ix1 ⟨rowOf t.val r.val, h⟩) := by
  obtain ⟨-, -, -, -, -, -, e0, e1, e2⟩ := blockIndex t
  have ht : t.val < 250 := lt_of_lt_of_eq t.isLt N_0
  have hr : r.val < 4000 := r.isLt
  have hemb : ((cfg0.win 2).blk t).view.emb (ix3 0 r 0)
      = (ix3 ⟨t.val / 125, by omega⟩ ⟨4000 * (t.val % 125) + r.val, by omega⟩ 0 : S2x500000x1.Idx) := by
    funext a; apply Fin.ext
    match a with
    | ⟨0, _⟩ => show win0_2.index t (0 : Fin 3) * 1 + 1 * 0 = t.val / 125; omega
    | ⟨1, _⟩ => show win0_2.index t (1 : Fin 3) * 4000 + 1 * r.val = 4000 * (t.val % 125) + r.val; omega
    | ⟨2, _⟩ => show win0_2.index t (2 : Fin 3) * 1 + 1 * 0 = 0; omega
  show V m c main_v2 (((cfg0.win 2).blk t).view.emb (ix3 0 r 0)) = _
  rw [hemb, V_main_v2]
  exact reshape_label _ _ _ ⟨rowOf t.val r.val, h⟩
    (by show rowOf t.val r.val = 500000 * (t.val / 125) + (4000 * (t.val % 125) + r.val); unfold rowOf; omega)

end Cert.KernelIdeal.InputBlocks

end
-- ==== Proof.SumSplit.lean ====
/-
  A sum over the first a·b natural numbers, arranged in a blocks of b; and the sum over 1,000,000 rows arranged as the two
  halves of 125 blocks of 4000 rows that the grid visits.
-/
import Mathlib.Algebra.BigOperators.Intervals
import Mathlib.Algebra.BigOperators.Fin

namespace Cert.SumSplit

open Finset

/-- The first a·b numbers, block by block. -/
theorem sum_range_mul {M : Type*} [AddCommMonoid M] (a b : ℕ) (g : ℕ → M) :
    ∑ n ∈ range (a * b), g n = ∑ i ∈ range a, ∑ j ∈ range b, g (b * i + j) := by
  induction a with
  | zero => simp
  | succ a ih =>
    rw [Nat.succ_mul, sum_range_add, ih, sum_range_succ]
    refine congrArg (_ + ·) (sum_congr rfl fun j _ => ?_)
    rw [Nat.mul_comm]

/-- The 1,000,000 rows as two halves of 125 blocks of 4000. -/
theorem sum_rows {M : Type*} [AddCommMonoid M] (g : ℕ → M) :
    ∑ n ∈ range 1000000, g n
      = ∑ k ∈ range 125, ∑ r ∈ range 4000, g (4000 * k + r) + ∑ k ∈ range 125, ∑ r ∈ range 4000, g (500000 + (4000 * k + r)) := by
  have h1 : ∑ n ∈ range 1000000, g n = ∑ n ∈ range (500000 + 500000), g n := rfl
  have h2 : ∑ n ∈ range 500000, g n = ∑ n ∈ range (125 * 4000), g n := rfl
  have h3 : ∑ n ∈ range 500000, g (500000 + n) = ∑ n ∈ range (125 * 4000), g (500000 + n) := rfl
  rw [h1, sum_range_add, h2, h3, sum_range_mul 125 4000 g, sum_range_mul 125 4000 fun n => g (500000 + n)]

end Cert.SumSplit
-- ==== Proof.LibRealSums.lean ====
/-
  Finite sums and maxima of real numbers inside the extended reals, and the softmax's division law.
  An idealized float is an extended real; a proof that needs a law of the reals (here: a quotient of a sum is the sum of the
  quotients) first shows that the numbers involved are reals and then computes in ℝ. These are the general steps:
  the inclusion of ℝ commutes with finite sums and with max; a finite sum of reals is a real, of positive reals over a
  nonempty set a positive real; a fold of max from −∞ over a nonempty set of reals is a real; and dividing a weighted sum once
  by a nonzero real is dividing every weight first. General in the index types.
-/
import Idealize.ShloMosaic.PureOps.Ideal
import Idealize.ShloMosaic.PureOps.Ideal.Laws

noncomputable section

namespace Cert.RealSums

open Idealize.ShloMosaic
open scoped BigOperators

/-- The inclusion of the reals in the extended reals carries a finite sum to the sum of the inclusions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is a real. -/
theorem sum_real {ι : Type*} (s : Finset ι) (f : ι → EReal) (hf : ∀ i, ∃ r : ℝ, f i = (r : EReal)) :
    ∃ r : ℝ, ∑ i ∈ s, f i = (r : EReal) := by
  choose g hg using hf
  exact ⟨∑ i ∈ s, g i, by rw [coe_sum]; exact Finset.sum_congr rfl fun i _ => hg i⟩

/-- A finite sum of positive reals over a nonempty index set is a positive real. -/
theorem sum_pos_real {ι : Type*} (s : Finset ι) (hs : s.Nonempty) (f : ι → EReal)
    (hf : ∀ i, ∃ r : ℝ, 0 < r ∧ f i = (r : EReal)) :
    ∃ r : ℝ, 0 < r ∧ ∑ i ∈ s, f i = (r : EReal) := by
  choose g hg using hf
  exact ⟨∑ i ∈ s, g i, Finset.sum_pos (fun i _ => (hg i).1) hs,
    by rw [coe_sum]; exact Finset.sum_congr rfl fun i _ => (hg i).2⟩

/-- The inclusion of the reals carries the larger of two reals to the larger of the inclusions. -/
theorem coe_max (a b : ℝ) : ((max a b : ℝ) : EReal) = max (a : EReal) (b : EReal) :=
  EReal.coe_strictMono.monotone.map_max

/-- The maximum of finitely many reals, folded from −∞ over a nonempty index set, is a real. -/
theorem fold_max_bot_real {ι : Type*} (s : Finset ι) (hs : s.Nonempty) (f : ι → EReal)
    (hf : ∀ i, ∃ r : ℝ, f i = (r : EReal)) :
    ∃ r : ℝ, s.fold max (⊥ : EReal) f = (r : EReal) := by
  choose g hg using hf
  induction hs using Finset.Nonempty.cons_induction with
  | singleton a => exact ⟨g a, by rw [Finset.fold_singleton, hg a, max_eq_left bot_le]⟩
  | cons a s ha hs ih =>
    obtain ⟨r, hr⟩ := ih
    exact ⟨max (g a) r, by rw [Finset.fold_cons, hr, hg a, coe_max]⟩

/-- The softmax's division law: for real weights `p`, real values `v` and a nonzero real `l`, the weighted sum divided once
    by `l` is the sum with every weight divided by `l` first. -/
theorem div_sum_eq_sum_div {ι : Type*} (s : Finset ι) (p v : ι → ℝ) (l : ℝ) (hl : l ≠ 0) :
    Ideal.div (∑ κ ∈ s, (p κ : EReal) * (v κ : EReal)) (l : EReal) = ∑ κ ∈ s, Ideal.div (p κ : EReal) (l : EReal) * (v κ : EReal) := by
  simp only [Ideal.div_coe hl]
  have hK : (∑ κ ∈ s, (p κ : EReal) * (v κ : EReal)) = ((∑ κ ∈ s, p κ * v κ : ℝ) : EReal) := by
    rw [coe_sum]; exact Finset.sum_congr rfl fun κ _ => (EReal.coe_mul _ _)
  have hR : (∑ κ ∈ s, (p κ : EReal) * ((1 / l : ℝ) : EReal) * (v κ : EReal))
      = ((∑ κ ∈ s, p κ * (1 / l) * v κ : ℝ) : EReal) := by
    rw [coe_sum]; exact Finset.sum_congr rfl fun κ _ => by rw [EReal.coe_mul, EReal.coe_mul]
  rw [hK, hR, ← EReal.coe_mul, Finset.sum_mul]
  exact congrArg _ (Finset.sum_congr rfl fun κ _ => mul_right_comm _ _ _)

end Cert.RealSums

end
-- ==== Proof.Bridge.lean ====
/-
  The kernel's three tables are the reference's.

  Class c's count in the kernel is the sum, over the two halves, the 125 points of a half and the 4000 rows of a point, of the
  one-hot entry of the row's label at c; the rows visited are each of the 1,000,000 rows once, and the one-hot entry is 1
  exactly when the label, read as a signed integer, is c: the reference's count. The tables of sums are the same sums weighted
  by the row scaled by the reciprocal square root of its sum of squares; for a row of real entries with a positive sum of
  squares that is the row divided by its Euclidean norm, the reference's normalized row. The first 128 columns of the kernel's
  block carry the first feature array, the last 128 the second.
-/
import proofs.«400432_j91276644974681_3_alg».proof.Proof.Arrays
import proofs.«400432_j91276644974681_3_alg».proof.Proof.InputBlocks
import proofs.«400432_j91276644974681_3_alg».proof.Proof.KernelTail
import proofs.«400432_j91276644974681_3_alg».proof.Proof.Spec
import proofs.«400432_j91276644974681_3_alg».proof.Proof.SumSplit
import proofs.«400432_j91276644974681_3_alg».proof.Proof.LibRealSums

noncomputable section

namespace Cert.Bridge

open Idealize.ShloMosaic Idealize.ShloMosaic.TcCoe Idealize.ShloMosaic.ValueIdx Idealize.SL.Sem
open Cert.KernelIdeal Cert.KernelIdeal.Gen Cert.BlockSpec Cert.Spec
open Cert.KernelIdeal.Running Cert.KernelIdeal.Arrays Cert.KernelIdeal.InputBlocks Cert.KernelIdeal.TailValue

/-- A label word names class c of 1000 exactly when it is the 32-bit word of the number c. -/
theorem hit_iff (w : BitVec 32) (cc : Fin 1000) : Cert.LibRows.RowHit 1000 w cc ↔ w = BitVec.ofNat 32 cc.val := by
  unfold Cert.LibRows.RowHit
  have hc := cc.isLt
  have hcond := BitVec.toInt_eq_toNat_cond w
  have hw := w.isLt
  constructor
  · rintro ⟨h0, h1, h2⟩
    apply BitVec.eq_of_toNat_eq
    rw [BitVec.toNat_ofNat, Nat.mod_eq_of_lt (by omega)]
    split at hcond <;> omega
  · rintro rfl
    have ht : (BitVec.ofNat 32 cc.val).toNat = cc.val := by rw [BitVec.toNat_ofNat, Nat.mod_eq_of_lt (by omega)]
    rw [ht] at hcond
    rw [if_pos (by omega)] at hcond
    rw [hcond]
    omega

/-- The one-hot entry at a class below 1000 is the indicator of the label naming the class. -/
theorem hot_eq (w : BitVec 32) (cc : Fin 1000) (cl : Fin 1024) (hcl : cl.val = cc.val) :
    hot w cl = if Cert.LibRows.RowHit 1000 w cc then (1 : EReal) else 0 := by
  unfold hot
  rw [hcl]
  exact if_congr (hit_iff w cc).symm rfl rfl

/-- For an array of real entries whose rows have positive sums of squares, an entry times the reciprocal square root of its
    row's sum of squares is the entry of the row divided by its norm. -/
theorem scaled_eq_nrm (X : FVec Ideal SX .f32) (hre : ∀ i, ∃ r : ℝ, X i = (r : EReal))
    (hpos : ∀ n : Fin 1000000, (0 : EReal) < ∑ k : Fin 128, X (ix2 n k) * X (ix2 n k)) (n : Fin 1000000) (d : Fin 128) :
    X (ix2 n d) * Ideal.rsqrt (∑ k : Fin 128, X (ix2 n k) * X (ix2 n k)) = nrm X n d := by
  obtain ⟨r, hr⟩ := hre (ix2 n d)
  obtain ⟨s, hs⟩ := Cert.RealSums.sum_real Finset.univ (fun k : Fin 128 => X (ix2 n k) * X (ix2 n k))
    (fun k => by obtain ⟨a, ha⟩ := hre (ix2 n k); exact ⟨a * a, by rw [ha, EReal.coe_mul]⟩)
  have hs0 : 0 < s := by
    have h := hpos n
    rw [hs] at h
    exact_mod_cast h
  unfold nrm rowSq
  rw [hs, hr]
  exact mul_rsqrt_eq_div_sqrt r s hs0

/-- A quantity summed over the two halves' 125 points, each point's part a sum over its 4000 rows of a function of the
    row's number, is the sum of that function over all 1,000,000 rows. -/
theorem halves_sum (f : Fin 1000000 → EReal) (Q : ℕ → EReal)
    (hQ : ∀ n, n < 250 → Q n = ∑ r ∈ Finset.range 4000, (fun q => if h : q < 1000000 then f ⟨q, h⟩ else 0) (rowOf n r)) :
    ∑ k ∈ Finset.range 125, Q (125 * 0 + k) + ∑ k ∈ Finset.range 125, Q (125 * 1 + k) = ∑ n : Fin 1000000, f n := by
  have hR : ∑ n : Fin 1000000, f n = ∑ n ∈ Finset.range 1000000, (fun q => if h : q < 1000000 then f ⟨q, h⟩ else 0) n := by
    rw [← Fin.sum_univ_eq_sum_range (fun q => if h : q < 1000000 then f ⟨q, h⟩ else 0) 1000000]
    exact Finset.sum_congr rfl fun n _ => by rw [dif_pos n.isLt]
  rw [hR, Cert.SumSplit.sum_rows]
  refine congrArg₂ (· + ·) (Finset.sum_congr rfl fun k hk => ?_) (Finset.sum_congr rfl fun k hk => ?_)
  · have hk' := Finset.mem_range.mp hk
    rw [hQ _ (by omega)]
    refine Finset.sum_congr rfl fun r _ => ?_
    have e : rowOf (125 * 0 + k) r = 4000 * k + r := by unfold rowOf; omega
    rw [e]
  · have hk' := Finset.mem_range.mp hk
    rw [hQ _ (by omega)]
    refine Finset.sum_congr rfl fun r _ => ?_
    have e : rowOf (125 * 1 + k) r = 500000 + (4000 * k + r) := by unfold rowOf; omega
    rw [e]

variable (m : (ℓ : Loc nD τ sig) → Buf (Elt Ideal) ℓ) (c : Dev nD)

/-- The program's three argument arrays on core c. -/
abbrev feat1 : FVec Ideal SX .f32 := m ((c : Thread nD τ).loc main_arg0)
abbrev feat2 : FVec Ideal SX .f32 := m ((c : Thread nD τ).loc main_arg1)
abbrev labels : IVec SL 32 := m ((c : Thread nD τ).loc main_arg2)

/-- Point n's tally at a class is the sum over its 4000 rows of the one-hot entry of the row's label. -/
theorem tallyAt_rows (n : ℕ) (hn : n < 250) (cl : Fin 1024) :
    tallyAt m c n cl
      = ∑ r ∈ Finset.range 4000, (fun q => if h : q < 1000000 then hot (labels m c (ix1 ⟨q, h⟩)) cl else 0) (rowOf n r) := by
  have hN : cfg0.N = 250 := N_0
  rw [tallyAt_of_lt m c n (by rw [hN]; exact hn) cl]
  unfold tally
  rw [← Fin.sum_univ_eq_sum_range (fun r => (fun q => if h : q < 1000000 then hot (labels m c (ix1 ⟨q, h⟩)) cl else 0) (rowOf n r)) 4000]
  refine Finset.sum_congr rfl fun r _ => ?_
  have hlt := rowOf_lt n r.val hn r.isLt
  dsimp only [blkL]
  rw [label_apply m c ⟨n, by rw [hN]; exact hn⟩ r hlt, dif_pos hlt]

/-- The kernel's table of counts is the reference's. -/
theorem counts_eq (cc : Fin 1000) :
    countsOf (F := Ideal) (countsArr m c) (ix1 cc) = cntSpec (labels m c) cc := by
  rw [countsOf_apply]
  have h := halves_sum (fun n : Fin 1000000 => hot (labels m c (ix1 n)) ⟨cc.val, by have := cc.isLt; omega⟩)
    (fun n => tallyAt m c n ⟨cc.val, by have := cc.isLt; omega⟩) (fun n hn => tallyAt_rows m c n hn _)
  refine Eq.trans ?_ (h.trans ?_)
  · rfl
  · unfold cntSpec rowsOf
    rw [Finset.sum_filter]
    exact Finset.sum_congr rfl fun n _ => hot_eq _ cc _ rfl

/-- Row r of point t's first feature block, scaled, is the normalized row of the first argument. -/
theorem rown_feat1 (hre : ∀ i, ∃ r : ℝ, feat1 m c i = (r : EReal))
    (hpos : ∀ n : Fin 1000000, (0 : EReal) < ∑ k : Fin 128, feat1 m c (ix2 n k) * feat1 m c (ix2 n k))
    (t : Fin cfg0.N) (r : Fin 4000) (d : Fin 128) (hlt : rowOf t.val r.val < 1000000) :
    rown (blk0 m c t) r d = nrm (feat1 m c) ⟨rowOf t.val r.val, hlt⟩ d := by
  unfold rown
  dsimp only [blk0]
  simp only [feat1_apply m c t r _ hlt]
  exact scaled_eq_nrm (feat1 m c) hre hpos ⟨rowOf t.val r.val, hlt⟩ d

/-- The same for the second feature block and the second argument. -/
theorem rown_feat2 (hre : ∀ i, ∃ r : ℝ, feat2 m c i = (r : EReal))
    (hpos : ∀ n : Fin 1000000, (0 : EReal) < ∑ k : Fin 128, feat2 m c (ix2 n k) * feat2 m c (ix2 n k))
    (t : Fin cfg0.N) (r : Fin 4000) (d : Fin 128) (hlt : rowOf t.val r.val < 1000000) :
    rown (blk1 m c t) r d = nrm (feat2 m c) ⟨rowOf t.val r.val, hlt⟩ d := by
  unfold rown
  dsimp only [blk1]
  simp only [feat2_apply m c t r _ hlt]
  exact scaled_eq_nrm (feat2 m c) hre hpos ⟨rowOf t.val r.val, hlt⟩ d

/-- Point n's contribution at a class and a column of the first 128 is the sum over its rows of the one-hot entry times the
    normalized row of the first argument. -/
theorem contribAt_rows1 (hre : ∀ i, ∃ r : ℝ, feat1 m c i = (r : EReal))
    (hpos : ∀ n : Fin 1000000, (0 : EReal) < ∑ k : Fin 128, feat1 m c (ix2 n k) * feat1 m c (ix2 n k))
    (n : ℕ) (hn : n < 250) (cl : Fin 1024) (e : Fin 256) (d : Fin 128) (he : e.val = d.val) :
    contribAt m c n cl e
      = ∑ r ∈ Finset.range 4000, (fun q => if h : q < 1000000 then hot (labels m c (ix1 ⟨q, h⟩)) cl * nrm (feat1 m c) ⟨q, h⟩ d else 0) (rowOf n r) := by
  have hN : cfg0.N = 250 := N_0
  have hnN : n < cfg0.N := by rw [hN]; exact hn
  rw [contribAt_of_lt m c n hnN cl e]
  unfold contrib
  rw [← Fin.sum_univ_eq_sum_range (fun r => (fun q => if h : q < 1000000 then hot (labels m c (ix1 ⟨q, h⟩)) cl * nrm (feat1 m c) ⟨q, h⟩ d else 0) (rowOf n r)) 4000]
  refine Finset.sum_congr rfl fun r _ => ?_
  have hlt := rowOf_lt n r.val hn r.isLt
  have hd : e.val < 128 := by rw [he]; exact d.isLt
  have hcat : cat (blk0 m c ⟨n, hnN⟩) (blk1 m c ⟨n, hnN⟩) r e = nrm (feat1 m c) ⟨rowOf n r.val, hlt⟩ d := by
    unfold cat
    rw [dif_pos hd, show (⟨e.val, hd⟩ : Fin 128) = d from Fin.ext he]
    exact rown_feat1 m c hre hpos ⟨n, hnN⟩ r d hlt
  rw [hcat]
  dsimp only [blkL]
  rw [label_apply m c ⟨n, hnN⟩ r hlt, dif_pos hlt]

/-- At a column of the last 128 it is the same with the normalized row of the second argument. -/
theorem contribAt_rows2 (hre : ∀ i, ∃ r : ℝ, feat2 m c i = (r : EReal))
    (hpos : ∀ n : Fin 1000000, (0 : EReal) < ∑ k : Fin 128, feat2 m c (ix2 n k) * feat2 m c (ix2 n k))
    (n : ℕ) (hn : n < 250) (cl : Fin 1024) (e : Fin 256) (d : Fin 128) (he : e.val = 128 + d.val) :
    contribAt m c n cl e
      = ∑ r ∈ Finset.range 4000, (fun q => if h : q < 1000000 then hot (labels m c (ix1 ⟨q, h⟩)) cl * nrm (feat2 m c) ⟨q, h⟩ d else 0) (rowOf n r) := by
  have hN : cfg0.N = 250 := N_0
  have hnN : n < cfg0.N := by rw [hN]; exact hn
  rw [contribAt_of_lt m c n hnN cl e]
  unfold contrib
  rw [← Fin.sum_univ_eq_sum_range (fun r => (fun q => if h : q < 1000000 then hot (labels m c (ix1 ⟨q, h⟩)) cl * nrm (feat2 m c) ⟨q, h⟩ d else 0) (rowOf n r)) 4000]
  refine Finset.sum_congr rfl fun r _ => ?_
  have hlt := rowOf_lt n r.val hn r.isLt
  have hd : ¬e.val < 128 := by omega
  have hcat : cat (blk0 m c ⟨n, hnN⟩) (blk1 m c ⟨n, hnN⟩) r e = nrm (feat2 m c) ⟨rowOf n r.val, hlt⟩ d := by
    unfold cat
    rw [dif_neg hd, show (⟨e.val - 128, by have := e.isLt; omega⟩ : Fin 128) = d from Fin.ext (by show e.val - 128 = d.val; omega)]
    exact rown_feat2 m c hre hpos ⟨n, hnN⟩ r d hlt
  rw [hcat]
  dsimp only [blkL]
  rw [label_apply m c ⟨n, hnN⟩ r hlt, dif_pos hlt]

/-- The one-hot entry times a value is the value where the label names the class and zero elsewhere. -/
theorem hot_mul (w : BitVec 32) (cc : Fin 1000) (cl : Fin 1024) (hcl : cl.val = cc.val) (x : EReal) :
    hot w cl * x = if Cert.LibRows.RowHit 1000 w cc then x else 0 := by
  rw [hot_eq w cc cl hcl, ite_mul, one_mul, zero_mul]

/-- The kernel's first table of sums is the reference's. -/
theorem sums1_eq (hre : ∀ i, ∃ r : ℝ, feat1 m c i = (r : EReal))
    (hpos : ∀ n : Fin 1000000, (0 : EReal) < ∑ k : Fin 128, feat1 m c (ix2 n k) * feat1 m c (ix2 n k))
    (cc : Fin 1000) (d : Fin 128) :
    sums1Of (F := Ideal) (sumsArr m c) (ix2 cc d) = sumSpec (feat1 m c) (labels m c) cc d := by
  rw [sums1Of_apply]
  have h := halves_sum (fun n : Fin 1000000 => hot (labels m c (ix1 n)) ⟨cc.val, by have := cc.isLt; omega⟩ * nrm (feat1 m c) n d)
    (fun n => contribAt m c n ⟨cc.val, by have := cc.isLt; omega⟩ ⟨d.val, by have := d.isLt; omega⟩)
    (fun n hn => contribAt_rows1 m c hre hpos n hn _ _ d rfl)
  refine Eq.trans ?_ (h.trans ?_)
  · rfl
  · unfold sumSpec rowsOf
    rw [Finset.sum_filter]
    exact Finset.sum_congr rfl fun n _ => hot_mul _ cc _ rfl _

/-- The kernel's second table of sums is the reference's. -/
theorem sums2_eq (hre : ∀ i, ∃ r : ℝ, feat2 m c i = (r : EReal))
    (hpos : ∀ n : Fin 1000000, (0 : EReal) < ∑ k : Fin 128, feat2 m c (ix2 n k) * feat2 m c (ix2 n k))
    (cc : Fin 1000) (d : Fin 128) :
    sums2Of (F := Ideal) (sumsArr m c) (ix2 cc d) = sumSpec (feat2 m c) (labels m c) cc d := by
  rw [sums2Of_apply]
  have h := halves_sum (fun n : Fin 1000000 => hot (labels m c (ix1 n)) ⟨cc.val, by have := cc.isLt; omega⟩ * nrm (feat2 m c) n d)
    (fun n => contribAt m c n ⟨cc.val, by have := cc.isLt; omega⟩ ⟨128 + d.val, by have := d.isLt; omega⟩)
    (fun n hn => contribAt_rows2 m c hre hpos n hn _ _ d rfl)
  refine Eq.trans ?_ (h.trans ?_)
  · rfl
  · unfold sumSpec rowsOf
    rw [Finset.sum_filter]
    exact Finset.sum_congr rfl fun n _ => hot_mul _ cc _ rfl _

end Cert.Bridge

end
-- ==== Proof.PreFacts.lean ====
import proofs.«400432_j91276644974681_3_alg».proof.Pre_finite_inputs
import Idealize.ShloMosaic.PureOps.Ideal
import Idealize.ShloMosaic.PureOps.Ideal.Laws
import Idealize.ShloMosaic.Lib.ValueIdx
import Idealize.ShloMosaic.Lib.ReduceAll
import Idealize.ShloMosaic.Lib.StableHlo.Predicate

/-!
  What the precondition says about the inputs, at the ideal (extended-real) instance.

  The precondition is the conjunction of four "for all" statements, each a reduction by `and` of an array of
  one-bit comparisons down to a single bit:
    * |x1| < +∞ at every entry,  * |x2| < +∞ at every entry,
    * the row sum of squares of x1 is > 0 at every row,  * likewise for x2.
  A conjunction of bits is 1 exactly when both are; a reduction by `and` into one bit is 1 only if every
  reduced bit is 1. So each comparison holds at every index, and what is left is to read one comparison:
    * an extended real x with max x (-x) < ⊤ is neither ⊤ nor ⊥, hence a real number;
    * the row sum, read at row n, is 0 + ∑ k, x (n, k) * x (n, k), and "0 < that" is the comparison itself.
-/

namespace Cert.PreFacts
open Idealize.ShloMosaic Idealize.ShloMosaic.ValueIdx
open Cert.Pre_finite_inputs

/-- The rank-0 shape has exactly one index: an index is a function out of the empty set of axes. -/
instance subsingleton_scalarIdx : Subsingleton S_.Idx := ⟨fun a b => funext fun d => d.elim0⟩

/-- An extended real whose absolute value `max x (-x)` is below `⊤` is a real number:
    at `⊥` the maximum is `-⊥ = ⊤`, at `⊤` it is `⊤`, and neither is below `⊤`. -/
theorem real_of_abs_lt_top (x : EReal) (h : max x (-x) < ⊤) : ∃ r : ℝ, x = (r : EReal) := by
  induction x using EReal.rec with
  | bot => simp at h
  | coe r => exact ⟨r, rfl⟩
  | top => simp at h

/-- The f32 pattern with all exponent bits set and a zero mantissa denotes `⊤`. -/
theorem ofBits_inf_f32 : Ideal.ofBits .f32 0x7F800000#32 = ⊤ := by simp [Ideal.ofBits, Ideal.ieee]

/-- One entry of the comparison `|x| < +∞`: if its bit is 1, the entry of `x` is a real number. -/
theorem finite_elem [Facts] (x : FVec Ideal S1000000x128 .f32) (i : S1000000x128.Idx)
    (e : cmpf (F := Ideal) .olt (Host.absf x)
      (broadcastInDim S1000000x128 ![] Facts.bcast_S_S1000000x128 (constant (F := Ideal) S_ .f32 0x7F800000#32)) i = 1#1) :
    ∃ r : ℝ, x i = (r : EReal) := by
  -- at an index the comparison is the order's `max (x i) (-(x i)) < ⊤`, as a bit
  have e' : Ideal.cmp .olt (max (x i) (-(x i))) (Ideal.ofBits .f32 0x7F800000#32) = 1#1 := e
  rw [ofBits_inf_f32] at e'
  simp only [Ideal.cmp] at e'
  exact real_of_abs_lt_top _ (of_decide_eq_true ((StableHlo.Predicate.ofBool_eq_one_iff _).1 e'))

/-- The row sum of squares read at row `n`: the initial value `0` plus the sum over the 128 columns `k`
    of the square of the entry at `(n, k)`. -/
theorem rowsum_apply [Facts] (x : FVec Ideal S1000000x128 .f32) (n : Fin 1000000) :
    Host.reduceAdd (mulf x x) (constant (F := Ideal) S_ .f32 0x00000000#32)
        Facts.reducesTo_S1000000x128_S1000000_d1 Facts.h_S_ (ix1 n)
      = ∑ k : Fin 128, x (ix2 n k) * x (ix2 n k) := by
  generalize hy : mulf x x = y
  simp only [Host.reduceAdd, Ideal.hostReduceAdd_def]
  -- a sum over the one axis 1: the initial value plus the sum over that axis's coordinates
  rw [Ideal.hostReduceAdd_single Facts.reducesTo_S1000000x128_S1000000_d1 (by decide)]
  -- the initial value is the zero pattern, which denotes 0
  rw [constant_apply, Ideal.ofBits_zero_f32, zero_add]
  refine Finset.sum_congr rfl fun k _ => ?_
  rw [← hy, mulf_apply]
  -- the index with `k` inserted on axis 1 of the row index `(n)` is `(n, k)`, coordinate by coordinate
  exact congrArg (fun i => x i * x i)
    (funext fun a => Fin.ext (by match a with | ⟨0, _⟩ => rfl | ⟨1, _⟩ => rfl))

/-- One entry of the comparison `s > 0` against the zero splat: if its bit is 1, then `0 < s j`. -/
theorem pos_of_ogt_zero [Facts] (s : FVec Ideal S1000000 .f32) (j : S1000000.Idx)
    (e : cmpf (F := Ideal) .ogt s
      (broadcastInDim S1000000 ![] Facts.bcast_S_S1000000 (constant (F := Ideal) S_ .f32 0x00000000#32)) j = 1#1) :
    (0 : EReal) < s j := by
  -- at an index the comparison "greater than" is the order's `0 < s j`, as a bit
  have e' : Ideal.cmp .ogt (s j) (Ideal.ofBits .f32 0x00000000#32) = 1#1 := e
  rw [Ideal.ofBits_zero_f32] at e'
  simp only [Ideal.cmp] at e'
  exact of_decide_eq_true ((StableHlo.Predicate.ofBool_eq_one_iff _).1 e')

/-- One entry of the comparison "row sum of squares > 0": if its bit at row `n` is 1, the sum over the
    row of the squares is positive. -/
theorem pos_elem [Facts] (x : FVec Ideal S1000000x128 .f32) (n : Fin 1000000)
    (e : cmpf (F := Ideal) .ogt
      (Host.reduceAdd (mulf x x) (constant (F := Ideal) S_ .f32 0x00000000#32)
        Facts.reducesTo_S1000000x128_S1000000_d1 Facts.h_S_)
      (broadcastInDim S1000000 ![] Facts.bcast_S_S1000000 (constant (F := Ideal) S_ .f32 0x00000000#32)) (ix1 n) = 1#1) :
    (0 : EReal) < ∑ k : Fin 128, x (ix2 n k) * x (ix2 n k) := by
  rw [← rowsum_apply x n]
  exact pos_of_ogt_zero _ _ e

/-- Under the precondition every entry of both feature arrays is a real number and every row of each has a positive sum of squares. -/
theorem of_pre [Cert.Pre_finite_inputs.Facts]
    (x1 x2 : FVec Ideal Cert.Pre_finite_inputs.S1000000x128 .f32) (l : IVec Cert.Pre_finite_inputs.S1000000 32)
    (h : Cert.Pre_finite_inputs.fn (F := Ideal) x1 x2 l = fun _ => 1#1) :
    (∀ i, ∃ r : ℝ, x1 i = (r : EReal)) ∧ (∀ i, ∃ r : ℝ, x2 i = (r : EReal))
    ∧ (∀ n : Fin 1000000, (0 : EReal) < ∑ k : Fin 128, x1 (ix2 n k) * x1 (ix2 n k))
    ∧ (∀ n : Fin 1000000, (0 : EReal) < ∑ k : Fin 128, x2 (ix2 n k) * x2 (ix2 n k)) := by
  -- the result has the one empty index; read the hypothesis there
  have h0 := congrFun h ValueIdx.ix0
  dsimp only [fn, fn_part1] at h0
  -- ((A ∧ B) ∧ C) ∧ D, each a single bit
  obtain ⟨h123, h4⟩ := IntOp.andi_eq_one.1 h0
  obtain ⟨h12, h3⟩ := IntOp.andi_eq_one.1 h123
  obtain ⟨h1, h2⟩ := IntOp.andi_eq_one.1 h12
  -- a reduction by `and` into one bit that is 1 had a 1 at every index
  refine ⟨fun i => ?_, fun i => ?_, fun n => ?_, fun n => ?_⟩
  · exact finite_elem x1 i (Host.reduce_andi_all _ _ _ _ _ h1 i)
  · exact finite_elem x2 i (Host.reduce_andi_all _ _ _ _ _ h2 i)
  · exact pos_elem x1 n (Host.reduce_andi_all _ _ _ _ _ h3 (ix1 n))
  · exact pos_elem x2 n (Host.reduce_andi_all _ _ _ _ _ h4 (ix1 n))

end Cert.PreFacts
-- ==== Proof.lean ====
/-
  The certificate's proof.

  Both programs compute, from two feature arrays of 1,000,000 rows and one label per row, the per-class count and the per-class
  sums of the rows divided by their Euclidean norms, and then the same chain: centers = sums / max(count, 1), the squared
  distance of the two centers per class, hinged at the margin, kept for the classes that occur, summed.

  The kernel forms the tables on a 2 x 125 grid of blocks of 4000 rows: per point the transposed one-hot matrix of the labels
  times the two blocks scaled by the reciprocal square roots of their rows' sums of squares, accumulated per half and added over
  the halves; the reference scatter-adds the normalized rows by label. Over the extended reals the two arrangements of the sums
  agree without any condition; the scaled row equals the row divided by its norm where the entries are real and the row's sum of
  squares is positive, which is what the precondition says of every row (on a row of zeros the reference's quotient 0 / 0 is
  undefined). A label outside 0 .. 999 contributes to neither.

  The three frames are the generated ones (the reference's is its run with the result dropped); the idealization rewrote
  nothing.
-/
import proofs.«400432_j91276644974681_3_alg».proof.Defs
import proofs.«400432_j91276644974681_3_alg».proof.Proof.Gen.Kernel
import proofs.«400432_j91276644974681_3_alg».proof.Proof.Gen.Kernel.Skeleton
import proofs.«400432_j91276644974681_3_alg».proof.Proof.Gen.Kernel.Launch
import proofs.«400432_j91276644974681_3_alg».proof.Proof.Gen.Kernel.Points
import proofs.«400432_j91276644974681_3_alg».proof.Proof.Gen.Kernel.Frame
import proofs.«400432_j91276644974681_3_alg».proof.Proof.Gen.KernelIdeal
import proofs.«400432_j91276644974681_3_alg».proof.Proof.Gen.KernelIdeal.Skeleton
import proofs.«400432_j91276644974681_3_alg».proof.Proof.Gen.KernelIdeal.Launch
import proofs.«400432_j91276644974681_3_alg».proof.Proof.Gen.KernelIdeal.Points
import proofs.«400432_j91276644974681_3_alg».proof.Proof.Gen.KernelIdeal.Frame
import proofs.«400432_j91276644974681_3_alg».proof.Proof.Gen.ReferenceIdeal
import proofs.«400432_j91276644974681_3_alg».proof.Proof.Gen.Pre_finite_inputs
import proofs.«400432_j91276644974681_3_alg».proof.Proof.RefRun
import proofs.«400432_j91276644974681_3_alg».proof.Proof.RefRead
import proofs.«400432_j91276644974681_3_alg».proof.Proof.RefTables
import proofs.«400432_j91276644974681_3_alg».proof.Proof.KernelRun
import proofs.«400432_j91276644974681_3_alg».proof.Proof.Arrays
import proofs.«400432_j91276644974681_3_alg».proof.Proof.Bridge
import proofs.«400432_j91276644974681_3_alg».proof.Proof.PreFacts
import Idealize.ShloMosaic.Adequacy
import Idealize.ShloMosaic.Init

noncomputable section

namespace Cert.Proof

open Idealize.ShloMosaic Idealize.ShloMosaic.TcCoe Idealize.ShloMosaic.ValueIdx Idealize.SL.Sem

/-- The idealized kernel's run with its result at the common tail of the tables cut from the arrays of per-half sums and
    counts, and its arguments unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      fun r => ∀ c : Dev Cert.KernelIdeal.nD,
        r.2.mem ((c.tc : Thread Cert.KernelIdeal.nD Cert.KernelIdeal.τ).loc Cert.KernelIdeal.main_v27)
          = Cert.Spec.tail Cert.KernelIdeal.Gen.bcast_S_S1000 Cert.KernelIdeal.Gen.bcast_S1000_S1000x1_0
              Cert.KernelIdeal.Gen.bcast_S1000x1_S1000x128_0_1 Cert.KernelIdeal.Gen.reducesTo_S1000x128_S1000_d1
              Cert.KernelIdeal.Gen.reducesTo_S1000_S_d0 Cert.KernelIdeal.Gen.h_S_
              (Cert.KernelIdeal.TailValue.countsOf (Cert.KernelIdeal.Arrays.countsArr m c))
              (Cert.KernelIdeal.TailValue.sums1Of (Cert.KernelIdeal.Arrays.sumsArr m c))
              (Cert.KernelIdeal.TailValue.sums2Of (Cert.KernelIdeal.Arrays.sumsArr m c))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2) :=
  (θ_run Cert.KernelIdeal.defs _ _).mono (fun _ h c => ⟨by
      rw [← Cert.KernelIdeal.Arrays.final_counts m c, ← Cert.KernelIdeal.Arrays.final_sums m c]; exact (h c).1, (h c).2⟩)
    (Cert.KernelIdeal.RunValue.run (F := Ideal) m ρ)

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end at the common tail of their three tables, and under the precondition the tables are equal entry by
    entry: the counts without any condition, the sums because every row has real entries and a positive sum of squares. -/
theorem algebraic : Cert.algebraic_KernelIdeal_ReferenceIdeal := by
  intro m ρ m' ρ' hpre hagree
  refine ⟨_, kernel_run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v39_eq, Cert.RefTables.result_eq_tail, (hagree c).1, (hagree c).2.1, (hagree c).2.2]
  obtain ⟨hre1, hre2, hpos1, hpos2⟩ := Cert.PreFacts.of_pre _ _ _ (hpre c)
  have e0 : Cert.ReferenceIdeal.ReadP.val_main_v15 (F := Ideal) (m ((c.tc : Thread Cert.KernelIdeal.nD Cert.KernelIdeal.τ).loc Cert.KernelIdeal.main_arg2))
      = Cert.KernelIdeal.TailValue.countsOf (Cert.KernelIdeal.Arrays.countsArr m c) := funext fun i => by
    obtain ⟨cc, rfl⟩ : ∃ cc : Fin 1000, i = ix1 cc := ⟨i 0, eq_ix1 i⟩
    exact (Cert.RefTables.counts_apply _ cc).trans (Cert.Bridge.counts_eq m c cc).symm
  have e1 : Cert.ReferenceIdeal.ReadP.val_main_v18 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg2))
      = Cert.KernelIdeal.TailValue.sums1Of (Cert.KernelIdeal.Arrays.sumsArr m c) := funext fun i => by
    obtain ⟨cc, d, rfl⟩ : ∃ (cc : Fin 1000) (d : Fin 128), i = ix2 cc d := ⟨i 0, i 1, eq_ix2 i⟩
    exact (Cert.RefTables.sums1_apply _ _ cc d).trans (Cert.Bridge.sums1_eq m c hre1 hpos1 cc d).symm
  have e2 : Cert.ReferenceIdeal.ReadP.val_main_v21 (F := Ideal) (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
      = Cert.KernelIdeal.TailValue.sums2Of (Cert.KernelIdeal.Arrays.sumsArr m c) := funext fun i => by
    obtain ⟨cc, d, rfl⟩ : ∃ (cc : Fin 1000) (d : Fin 128), i = ix2 cc d := ⟨i 0, i 1, eq_ix2 i⟩
    exact (Cert.RefTables.sums2_apply _ _ cc d).trans (Cert.Bridge.sums2_eq m c hre2 hpos2 cc d).symm
  rw [e0, e1, e2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
